-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩
abbrev S128x256 : Shape := ⟨2, ![128, 256]⟩
abbrev S128x4096 : Shape := ⟨2, ![128, 4096]⟩
abbrev S128 : Shape := ⟨1, ![128]⟩
abbrev S128x1 : Shape := ⟨2, ![128, 1]⟩
abbrev S1x128 : Shape := ⟨2, ![1, 128]⟩
abbrev S1 : Shape := ⟨1, ![1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | .local _ .vmem, ⟨10, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c128_i32 : BitVec 32 := 128#32
  let v0 : BitVec 32 := Scalar.muli arg0 c128_i32
  v0
def k1_off1 (i : grid1.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  iota_S128x4096_d0_w32 : S128x4096.Iotas .tc 32 [0]
  iota_S128x4096_d1_w32 : S128x4096.Iotas .tc 32 [1]
  reduces_S128x4096_S128 : S128x4096.Reduces [1] S128
  shapeCasts_S128_S128x1 : S128.ShapeCasts S128x1
  broadcasts_S128x1_S128x4096 : S128x1.Broadcasts S128x4096
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S128x256_S4096x256_S128x4096_1_1_0_0_n_n_wf : DotDims.WF S128x256 S4096x256 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .bf16 = 32 ∨ (Rect.block (s := S4096x256) S1024x256.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S128x256.size a ≤ S4096x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .bf16 = 32 ∨ (Rect.block (s := S4096x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x2 : Shape := ⟨2, ![4096, 2]⟩
abbrev S4096x8192 : Shape := ⟨2, ![4096, 8192]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩

abbrev nBuf : Space → Nat
  | .hbm => 122
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S256x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S256x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S256x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x1, .i32⟩
  | .hbm, ⟨54, _⟩ => ⟨S4096x2, .i32⟩
  | .hbm, ⟨55, _⟩ => ⟨S_, .f32⟩
  | .hbm, ⟨56, _⟩ => ⟨S4096, .f32⟩
  | .hbm, ⟨57, _⟩ => ⟨S4096x4096, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x1, .i32⟩
  | .hbm, ⟨74, _⟩ => ⟨S4096x2, .i32⟩
  | .hbm, ⟨75, _⟩ => ⟨S_, .f32⟩
  | .hbm, ⟨76, _⟩ => ⟨S4096, .f32⟩
  | .hbm, ⟨77, _⟩ => ⟨S4096x4096, .f32⟩
  | .hbm, ⟨78, _⟩ => ⟨S4096x8192, .f32⟩
  | .hbm, ⟨79, _⟩ => ⟨S4096x4096, .f32⟩
  | .hbm, ⟨80, _⟩ => ⟨S4096x8192, .f32⟩
  | .hbm, ⟨81, _⟩ => ⟨S8192x8192, .f32⟩
  | .hbm, ⟨82, _⟩ => ⟨S8192, .i32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1, .f32⟩
  | .hbm, ⟨96, _⟩ => ⟨S8192x8192, .f32⟩
  | .hbm, ⟨97, _⟩ => ⟨S8192x8192, .f32⟩
  | .hbm, ⟨98, _⟩ => ⟨S8192, .i32⟩
  | .hbm, ⟨99, _⟩ => ⟨S_, .i32⟩
  | .hbm, ⟨100, _⟩ => ⟨S8192, .i32⟩
  | .hbm, ⟨101, _⟩ => ⟨S8192, .i1⟩
  | .hbm, ⟨102, _⟩ => ⟨S_, .i32⟩
  | .hbm, ⟨103, _⟩ => ⟨S8192, .i32⟩
  | .hbm, ⟨104, _⟩ => ⟨S8192, .i32⟩
  | .hbm, ⟨105, _⟩ => ⟨S8192, .i32⟩
  | .hbm, ⟨106, _⟩ => ⟨S_, .i32⟩
  | .hbm, ⟨107, _⟩ => ⟨S8192, .i32⟩
  | .hbm, ⟨108, _⟩ => ⟨S8192, .i1⟩
  | .hbm, ⟨109, _⟩ => ⟨S_, .i32⟩
  | .hbm, ⟨110, _⟩ => ⟨S8192, .i32⟩
  | .hbm, ⟨111, _⟩ => ⟨S8192, .i32⟩
  | .hbm, ⟨112, _⟩ => ⟨S8192, .i32⟩
  | .hbm, ⟨113, _⟩ => ⟨S8192x1, .i32⟩
  | .hbm, ⟨114, _⟩ => ⟨S8192x1, .i32⟩
  | .hbm, ⟨115, _⟩ => ⟨S8192x2, .i32⟩
  | .hbm, ⟨116, _⟩ => ⟨S8192, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call2_cst : Ref sig .tc := ⟨.hbm, 83, rfl⟩
abbrev main_call2_v0 : Ref sig .tc := ⟨.hbm, 84, rfl⟩
abbrev main_call2_cst_0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_cst_1 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_v58 : Ref sig .tc := ⟨.hbm, 97, rfl⟩
abbrev main_v59 : Ref sig .tc := ⟨.hbm, 98, rfl⟩
abbrev main_c_13 : Ref sig .tc := ⟨.hbm, 99, rfl⟩
abbrev main_v60 : Ref sig .tc := ⟨.hbm, 100, rfl⟩
abbrev main_v61 : Ref sig .tc := ⟨.hbm, 101, rfl⟩
abbrev main_c_14 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_c_16 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_cst_18 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  bcast_S_S4096 : S_.BroadcastsInDim S4096 (![] : Fin 0 → Fin S4096.rank)
  concatenates_S4096x1_S4096x1_S4096x2_d1 : Shape.Concatenates [S4096x1, S4096x1] S4096x2 1
  concatenates_S4096x4096_S4096x4096_S4096x8192_d1 : Shape.Concatenates [S4096x4096, S4096x4096] S4096x8192 1
  transposes_S4096x4096_S4096x4096_1_0 : S4096x4096.Transposes [1, 0] S4096x4096
  concatenates_S4096x8192_S4096x8192_S8192x8192_d0 : Shape.Concatenates [S4096x8192, S4096x8192] S8192x8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S4096x256_S256x4096_S4096x4096_1_0_0_1_n_n_wf : DotDims.WF S4096x256 S256x4096 S4096x4096 [1] [0] [0] [1] [] []
  scatter_S4096x4096_S4096x2_S4096_n_01_01_1_wf : ScatterDims.WF S4096x4096 S4096x2 S4096 [] [0, 1] [0, 1] 1
  gather_S8192x8192_S8192x2_S8192_n_01_n_n_01_1_11_wf : GatherDims.WF S8192x8192 S8192x2 S8192 [] [0, 1] [] [0, 1] [] 1 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.RefRunAlt.lean ====
/-
  The reference program's @main is a straight line of 120 host operations, and its run ends with every buffer at
  the fold of the operations' results over the launch contents. This module evaluates that fold in fifteen
  stretches. After each stretch the buffers that later operations still read hold the stage values
  `val_main_…` of the two arguments: each operation of a stretch writes its function's value of its operands'
  contents, an operand written by an earlier stretch holds its stage value by the fact carried over, and the
  composed value is the next stage by definition. The last stretch leaves the result buffer at `val_main_v76`;
  no operation writes an argument.
-/
import proofs.«115458_j2911987827023_1_alg».proof.Proof.RefRead
import Idealize.ShloMosaic.Lib.StableHlo.Run

noncomputable section

namespace Cert.ReferenceIdeal.RunAlt

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The fold over a concatenation: the second list's fold from the first list's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The fifteen stretches of the operation list -/

/-- Operations 1 to 10: the first argument's rows divided by their norms. -/
abbrev c1 : List (HloOp τ sig (Elt F)) :=
  [ binary main_arg0 main_arg0 main_call0_v0 (mulf : (⟨S4096x256, .f32⟩ : BufTy).Contents (Elt F) → (⟨S4096x256, .f32⟩ : BufTy).Contents (Elt F) → (⟨S4096x256, .f32⟩ : BufTy).Contents (Elt F)),
    nullary main_call0_cst (constant S_ .f32 0x00000000#32 : (⟨S_, .f32⟩ : BufTy).Contents (Elt F)),
    binary main_call0_v0 main_call0_cst main_call0_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_call0_v1 main_call0_v2 ((broadcastInDim S4096x1 ![0] bcast_S4096_S4096x1_0) : (⟨S4096, .f32⟩ : BufTy).Contents (Elt F) → (⟨S4096x1, .f32⟩ : BufTy).Contents (Elt F)),
    unary main_call0_v2 main_v0 (Host.sqrt : (⟨S4096x1, .f32⟩ : BufTy).Contents (Elt F) → (⟨S4096x1, .f32⟩ : BufTy).Contents (Elt F)),
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x256 ![0, 1] bcast_S4096x1_S4096x256_0_1 : (⟨S4096x1, .f32⟩ : BufTy).Contents (Elt F) → (⟨S4096x256, .f32⟩ : BufTy).Contents (Elt F)),
    binary main_arg0 main_v3 main_v4 (Host.divf : (⟨S4096x256, .f32⟩ : BufTy).Contents (Elt F) → (⟨S4096x256, .f32⟩ : BufTy).Contents (Elt F) → (⟨S4096x256, .f32⟩ : BufTy).Contents (Elt F)) ]

/-- Operations 11 to 20: the second argument's rows divided by their norms. -/
abbrev c2 : List (HloOp τ sig (Elt F)) :=
  [ binary main_arg1 main_arg1 main_call1_v0 (mulf : (⟨S4096x256, .f32⟩ : BufTy).Contents (Elt F) → (⟨S4096x256, .f32⟩ : BufTy).Contents (Elt F) → (⟨S4096x256, .f32⟩ : BufTy).Contents (Elt F)),
    nullary main_call1_cst (constant S_ .f32 0x00000000#32 : (⟨S_, .f32⟩ : BufTy).Contents (Elt F)),
    binary main_call1_v0 main_call1_cst main_call1_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_call1_v1 main_call1_v2 ((broadcastInDim S4096x1 ![0] bcast_S4096_S4096x1_0) : (⟨S4096, .f32⟩ : BufTy).Contents (Elt F) → (⟨S4096x1, .f32⟩ : BufTy).Contents (Elt F)),
    unary main_call1_v2 main_v5 (Host.sqrt : (⟨S4096x1, .f32⟩ : BufTy).Contents (Elt F) → (⟨S4096x1, .f32⟩ : BufTy).Contents (Elt F)),
    nullary main_cst_0 (constant S_ .f32 0x322BCC77#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x256 ![0, 1] bcast_S4096x1_S4096x256_0_1 : (⟨S4096x1, .f32⟩ : BufTy).Contents (Elt F) → (⟨S4096x256, .f32⟩ : BufTy).Contents (Elt F)),
    binary main_arg1 main_v8 main_v9 (Host.divf : (⟨S4096x256, .f32⟩ : BufTy).Contents (Elt F) → (⟨S4096x256, .f32⟩ : BufTy).Contents (Elt F) → (⟨S4096x256, .f32⟩ : BufTy).Contents (Elt F)) ]

/-- Operations 21 to 25: the first normalised array's products with itself, doubled. -/
abbrev c3 : List (HloOp τ sig (Elt F)) :=
  [ unary main_v4 main_v10 ((transpose S256x4096 [1, 0] · transposes_S4096x256_S256x4096_1_0) : (⟨S4096x256, .f32⟩ : BufTy).Contents (Elt F) → (⟨S256x4096, .f32⟩ : BufTy).Contents (Elt F)),
    binary main_v4 main_v10 main_v11 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_1 (constant S_ .f32 0x40000000#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (mulf : (⟨S4096x4096, .f32⟩ : BufTy).Contents (Elt F) → (⟨S4096x4096, .f32⟩ : BufTy).Contents (Elt F) → (⟨S4096x4096, .f32⟩ : BufTy).Contents (Elt F)) ]

/-- Operations 26 to 30: the second normalised array's products with itself, doubled. -/
abbrev c4 : List (HloOp τ sig (Elt F)) :=
  [ unary main_v9 main_v14 ((transpose S256x4096 [1, 0] · transposes_S4096x256_S256x4096_1_0) : (⟨S4096x256, .f32⟩ : BufTy).Contents (Elt F) → (⟨S256x4096, .f32⟩ : BufTy).Contents (Elt F)),
    binary main_v9 main_v14 main_v15 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_2 (constant S_ .f32 0x40000000#32),
    unary main_cst_2 main_v16 (broadcastInDim S4096x4096 ![] bcast_S_S4096x4096 : (⟨S_, .f32⟩ : BufTy).Contents (Elt F) → (⟨S4096x4096, .f32⟩ : BufTy).Contents (Elt F)),
    binary main_v15 main_v16 main_v17 (mulf : (⟨S4096x4096, .f32⟩ : BufTy).Contents (Elt F) → (⟨S4096x4096, .f32⟩ : BufTy).Contents (Elt F) → (⟨S4096x4096, .f32⟩ : BufTy).Contents (Elt F)) ]

/-- Operations 31 to 35: the products of the first normalised array with the second, doubled. -/
abbrev c5 : List (HloOp τ sig (Elt F)) :=
  [ unary main_v9 main_v18 ((transpose S256x4096 [1, 0] · transposes_S4096x256_S256x4096_1_0) : (⟨S4096x256, .f32⟩ : BufTy).Contents (Elt F) → (⟨S256x4096, .f32⟩ : BufTy).Contents (Elt F)),
    binary main_v4 main_v18 main_v19 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_3 (constant S_ .f32 0x40000000#32),
    unary main_cst_3 main_v20 (broadcastInDim S4096x4096 ![] bcast_S_S4096x4096 : (⟨S_, .f32⟩ : BufTy).Contents (Elt F) → (⟨S4096x4096, .f32⟩ : BufTy).Contents (Elt F)),
    binary main_v19 main_v20 main_v21 (mulf : (⟨S4096x4096, .f32⟩ : BufTy).Contents (Elt F) → (⟨S4096x4096, .f32⟩ : BufTy).Contents (Elt F) → (⟨S4096x4096, .f32⟩ : BufTy).Contents (Elt F)) ]

/-- Operations 36 to 52: the row numbers, and the two index columns of the first diagonal. -/
abbrev c6 : List (HloOp τ sig (Elt F)) :=
  [ nullary main_v22 (iotaInDim S4096 32 0),
    nullary main_c (constantI S_ 32 0#32),
    unary main_c main_v23 (broadcastInDim S4096 ![] bcast_S_S4096 : (⟨S_, .i32⟩ : BufTy).Contents (Elt F) → (⟨S4096, .i32⟩ : BufTy).Contents (Elt F)),
    binary main_v22 main_v23 main_v24 (cmpi .slt : (⟨S4096, .i32⟩ : BufTy).Contents (Elt F) → (⟨S4096, .i32⟩ : BufTy).Contents (Elt F) → (⟨S4096, .i1⟩ : BufTy).Contents (Elt F)),
    nullary main_c_4 (constantI S_ 32 4096#32),
    unary main_c_4 main_v25 (broadcastInDim S4096 ![] bcast_S_S4096 : (⟨S_, .i32⟩ : BufTy).Contents (Elt F) → (⟨S4096, .i32⟩ : BufTy).Contents (Elt F)),
    binary main_v22 main_v25 main_v26 (addi : (⟨S4096, .i32⟩ : BufTy).Contents (Elt F) → (⟨S4096, .i32⟩ : BufTy).Contents (Elt F) → (⟨S4096, .i32⟩ : BufTy).Contents (Elt F)),
    ternary main_v24 main_v26 main_v22 main_v27 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v28 (broadcastInDim S4096 ![] bcast_S_S4096 : (⟨S_, .i32⟩ : BufTy).Contents (Elt F) → (⟨S4096, .i32⟩ : BufTy).Contents (Elt F)),
    binary main_v22 main_v28 main_v29 (cmpi .slt : (⟨S4096, .i32⟩ : BufTy).Contents (Elt F) → (⟨S4096, .i32⟩ : BufTy).Contents (Elt F) → (⟨S4096, .i1⟩ : BufTy).Contents (Elt F)),
    nullary main_c_6 (constantI S_ 32 4096#32),
    unary main_c_6 main_v30 (broadcastInDim S4096 ![] bcast_S_S4096 : (⟨S_, .i32⟩ : BufTy).Contents (Elt F) → (⟨S4096, .i32⟩ : BufTy).Contents (Elt F)),
    binary main_v22 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_v22 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v27 main_v33 (broadcastInDim S4096x1 ![0] bcast_S4096_S4096x1_0 : (⟨S4096, .i32⟩ : BufTy).Contents (Elt F) → (⟨S4096x1, .i32⟩ : BufTy).Contents (Elt F)),
    unary main_v32 main_v34 (broadcastInDim S4096x1 ![0] bcast_S4096_S4096x1_0 : (⟨S4096, .i32⟩ : BufTy).Contents (Elt F) → (⟨S4096x1, .i32⟩ : BufTy).Contents (Elt F)) ]

/-- Operations 53 to 56: the first diagonal's index table, and the first self-product with that diagonal at −∞. -/
abbrev c7 : List (HloOp τ sig (Elt F)) :=
  [ binary main_v33 main_v34 main_v35 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_7 (constant S_ .f32 0xFF800000#32),
    unary main_cst_7 main_v36 (broadcastInDim S4096 ![] bcast_S_S4096 : (⟨S_, .f32⟩ : BufTy).Contents (Elt F) → (⟨S4096, .f32⟩ : BufTy).Contents (Elt F)),
    ternary main_v13 main_v35 main_v36 main_v37 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)) ]

/-- Operations 57 to 72: the two index columns of the second diagonal. -/
abbrev c8 : List (HloOp τ sig (Elt F)) :=
  [ nullary main_c_8 (constantI S_ 32 0#32),
    unary main_c_8 main_v38 (broadcastInDim S4096 ![] bcast_S_S4096 : (⟨S_, .i32⟩ : BufTy).Contents (Elt F) → (⟨S4096, .i32⟩ : BufTy).Contents (Elt F)),
    binary main_v22 main_v38 main_v39 (cmpi .slt : (⟨S4096, .i32⟩ : BufTy).Contents (Elt F) → (⟨S4096, .i32⟩ : BufTy).Contents (Elt F) → (⟨S4096, .i1⟩ : BufTy).Contents (Elt F)),
    nullary main_c_9 (constantI S_ 32 4096#32),
    unary main_c_9 main_v40 (broadcastInDim S4096 ![] bcast_S_S4096 : (⟨S_, .i32⟩ : BufTy).Contents (Elt F) → (⟨S4096, .i32⟩ : BufTy).Contents (Elt F)),
    binary main_v22 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v22 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v43 (broadcastInDim S4096 ![] bcast_S_S4096 : (⟨S_, .i32⟩ : BufTy).Contents (Elt F) → (⟨S4096, .i32⟩ : BufTy).Contents (Elt F)),
    binary main_v22 main_v43 main_v44 (cmpi .slt : (⟨S4096, .i32⟩ : BufTy).Contents (Elt F) → (⟨S4096, .i32⟩ : BufTy).Contents (Elt F) → (⟨S4096, .i1⟩ : BufTy).Contents (Elt F)),
    nullary main_c_11 (constantI S_ 32 4096#32),
    unary main_c_11 main_v45 (broadcastInDim S4096 ![] bcast_S_S4096 : (⟨S_, .i32⟩ : BufTy).Contents (Elt F) → (⟨S4096, .i32⟩ : BufTy).Contents (Elt F)),
    binary main_v22 main_v45 main_v46 (addi : (⟨S4096, .i32⟩ : BufTy).Contents (Elt F) → (⟨S4096, .i32⟩ : BufTy).Contents (Elt F) → (⟨S4096, .i32⟩ : BufTy).Contents (Elt F)),
    ternary main_v44 main_v46 main_v22 main_v47 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v48 (broadcastInDim S4096x1 ![0] bcast_S4096_S4096x1_0 : (⟨S4096, .i32⟩ : BufTy).Contents (Elt F) → (⟨S4096x1, .i32⟩ : BufTy).Contents (Elt F)),
    unary main_v47 main_v49 (broadcastInDim S4096x1 ![0] bcast_S4096_S4096x1_0 : (⟨S4096, .i32⟩ : BufTy).Contents (Elt F) → (⟨S4096x1, .i32⟩ : BufTy).Contents (Elt F)) ]

/-- Operations 73 to 76: the second diagonal's index table, and the second self-product with that diagonal at −∞. -/
abbrev c9 : List (HloOp τ sig (Elt F)) :=
  [ binary main_v48 main_v49 main_v50 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_12 (constant S_ .f32 0xFF800000#32),
    unary main_cst_12 main_v51 (broadcastInDim S4096 ![] bcast_S_S4096 : (⟨S_, .f32⟩ : BufTy).Contents (Elt F) → (⟨S4096, .f32⟩ : BufTy).Contents (Elt F)),
    ternary main_v17 main_v50 main_v51 main_v52 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)) ]

/-- Operations 77 and 78: the upper half of the score matrix, and the transposed cross product. -/
abbrev c10 : List (HloOp τ sig (Elt F)) :=
  [ binary main_v21 main_v37 main_v53 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)),
    unary main_v21 main_v54 ((transpose S4096x4096 [1, 0] · transposes_S4096x4096_S4096x4096_1_0) : (⟨S4096x4096, .f32⟩ : BufTy).Contents (Elt F) → (⟨S4096x4096, .f32⟩ : BufTy).Contents (Elt F)) ]

/-- Operation 79: the lower half of the score matrix. -/
abbrev c11 : List (HloOp τ sig (Elt F)) :=
  [ binary main_v52 main_v54 main_v55 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)) ]

/-- Operations 80 to 88: the score matrix, the row numbers of its 8192 rows, and its row maxima spread over the rows. -/
abbrev c12 : List (HloOp τ sig (Elt F)) :=
  [ binary main_v53 main_v55 main_v56 ((fun a b => concatenate S8192x8192 0 [⟨S4096x8192, a⟩, ⟨S4096x8192, b⟩] concatenates_S4096x8192_S4096x8192_S8192x8192_d0) : (⟨S4096x8192, .f32⟩ : BufTy).Contents (Elt F) → (⟨S4096x8192, .f32⟩ : BufTy).Contents (Elt F) → (⟨S8192x8192, .f32⟩ : BufTy).Contents (Elt F)),
    nullary main_v57 (iotaInDim S8192 32 0),
    nullary main_call2_cst (constant S_ .f32 0xFF800000#32 : (⟨S_, .f32⟩ : BufTy).Contents (Elt F)),
    binary main_v56 main_call2_cst main_call2_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_call2_cst_0 (constant S_ .f32 0xFF800000#32 : (⟨S_, .f32⟩ : BufTy).Contents (Elt F)),
    unary main_call2_cst_0 main_call2_v1 ((broadcastInDim S8192 ![] bcast_S_S8192) : (⟨S_, .f32⟩ : BufTy).Contents (Elt F) → (⟨S8192, .f32⟩ : BufTy).Contents (Elt F)),
    binary main_call2_v1 main_call2_v0 main_call2_v2 (maximumf : (⟨S8192, .f32⟩ : BufTy).Contents (Elt F) → (⟨S8192, .f32⟩ : BufTy).Contents (Elt F) → (⟨S8192, .f32⟩ : BufTy).Contents (Elt F)),
    unary main_call2_v2 main_call2_v3 ((broadcastInDim S8192x1 ![0] bcast_S8192_S8192x1_0) : (⟨S8192, .f32⟩ : BufTy).Contents (Elt F) → (⟨S8192x1, .f32⟩ : BufTy).Contents (Elt F)),
    unary main_call2_v3 main_call2_v4 ((broadcastInDim S8192x8192 ![0, 1] bcast_S8192x1_S8192x8192_0_1) : (⟨S8192x1, .f32⟩ : BufTy).Contents (Elt F) → (⟨S8192x8192, .f32⟩ : BufTy).Contents (Elt F)) ]

/-- Operations 89 to 96: the scores less their row maximum, and from them the logarithm of each row's normalised weight. -/
abbrev c13 : List (HloOp τ sig (Elt F)) :=
  [ binary main_v56 main_call2_v4 main_call2_v5 (subf : (⟨S8192x8192, .f32⟩ : BufTy).Contents (Elt F) → (⟨S8192x8192, .f32⟩ : BufTy).Contents (Elt F) → (⟨S8192x8192, .f32⟩ : BufTy).Contents (Elt F)),
    unary main_call2_v5 main_call2_v6 (Host.exp : (⟨S8192x8192, .f32⟩ : BufTy).Contents (Elt F) → (⟨S8192x8192, .f32⟩ : BufTy).Contents (Elt F)),
    nullary main_call2_cst_1 (constant S_ .f32 0x00000000#32 : (⟨S_, .f32⟩ : BufTy).Contents (Elt F)),
    binary main_call2_v6 main_call2_cst_1 main_call2_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_call2_v7 main_call2_v8 ((broadcastInDim S8192x1 ![0] bcast_S8192_S8192x1_0) : (⟨S8192, .f32⟩ : BufTy).Contents (Elt F) → (⟨S8192x1, .f32⟩ : BufTy).Contents (Elt F)),
    unary main_call2_v8 main_call2_v9 (Host.log : (⟨S8192x1, .f32⟩ : BufTy).Contents (Elt F) → (⟨S8192x1, .f32⟩ : BufTy).Contents (Elt F)),
    unary main_call2_v9 main_call2_v10 ((broadcastInDim S8192x8192 ![0, 1] bcast_S8192x1_S8192x8192_0_1) : (⟨S8192x1, .f32⟩ : BufTy).Contents (Elt F) → (⟨S8192x8192, .f32⟩ : BufTy).Contents (Elt F)),
    binary main_call2_v5 main_call2_v10 main_v58 (subf : (⟨S8192x8192, .f32⟩ : BufTy).Contents (Elt F) → (⟨S8192x8192, .f32⟩ : BufTy).Contents (Elt F) → (⟨S8192x8192, .f32⟩ : BufTy).Contents (Elt F)) ]

/-- Operations 97 to 113: the two index columns of the 8192 diagonal entries. -/
abbrev c14 : List (HloOp τ sig (Elt F)) :=
  [ nullary main_v59 (iotaInDim S8192 32 0),
    nullary main_c_13 (constantI S_ 32 0#32),
    unary main_c_13 main_v60 (broadcastInDim S8192 ![] bcast_S_S8192 : (⟨S_, .i32⟩ : BufTy).Contents (Elt F) → (⟨S8192, .i32⟩ : BufTy).Contents (Elt F)),
    binary main_v59 main_v60 main_v61 (cmpi .slt : (⟨S8192, .i32⟩ : BufTy).Contents (Elt F) → (⟨S8192, .i32⟩ : BufTy).Contents (Elt F) → (⟨S8192, .i1⟩ : BufTy).Contents (Elt F)),
    nullary main_c_14 (constantI S_ 32 8192#32),
    unary main_c_14 main_v62 (broadcastInDim S8192 ![] bcast_S_S8192 : (⟨S_, .i32⟩ : BufTy).Contents (Elt F) → (⟨S8192, .i32⟩ : BufTy).Contents (Elt F)),
    binary main_v59 main_v62 main_v63 (addi : (⟨S8192, .i32⟩ : BufTy).Contents (Elt F) → (⟨S8192, .i32⟩ : BufTy).Contents (Elt F) → (⟨S8192, .i32⟩ : BufTy).Contents (Elt F)),
    ternary main_v61 main_v63 main_v59 main_v64 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_15 (constantI S_ 32 0#32),
    unary main_c_15 main_v65 (broadcastInDim S8192 ![] bcast_S_S8192 : (⟨S_, .i32⟩ : BufTy).Contents (Elt F) → (⟨S8192, .i32⟩ : BufTy).Contents (Elt F)),
    binary main_v57 main_v65 main_v66 (cmpi .slt : (⟨S8192, .i32⟩ : BufTy).Contents (Elt F) → (⟨S8192, .i32⟩ : BufTy).Contents (Elt F) → (⟨S8192, .i1⟩ : BufTy).Contents (Elt F)),
    nullary main_c_16 (constantI S_ 32 8192#32),
    unary main_c_16 main_v67 (broadcastInDim S8192 ![] bcast_S_S8192 : (⟨S_, .i32⟩ : BufTy).Contents (Elt F) → (⟨S8192, .i32⟩ : BufTy).Contents (Elt F)),
    binary main_v57 main_v67 main_v68 (addi : (⟨S8192, .i32⟩ : BufTy).Contents (Elt F) → (⟨S8192, .i32⟩ : BufTy).Contents (Elt F) → (⟨S8192, .i32⟩ : BufTy).Contents (Elt F)),
    ternary main_v66 main_v68 main_v57 main_v69 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v64 main_v70 (broadcastInDim S8192x1 ![0] bcast_S8192_S8192x1_0 : (⟨S8192, .i32⟩ : BufTy).Contents (Elt F) → (⟨S8192x1, .i32⟩ : BufTy).Contents (Elt F)),
    unary main_v69 main_v71 (broadcastInDim S8192x1 ![0] bcast_S8192_S8192x1_0 : (⟨S8192, .i32⟩ : BufTy).Contents (Elt F) → (⟨S8192x1, .i32⟩ : BufTy).Contents (Elt F)) ]

/-- Operations 114 to 120: the diagonal entries gathered, summed, divided by the count and negated. -/
abbrev c15 : List (HloOp τ sig (Elt F)) :=
  [ binary main_v70 main_v71 main_v72 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v58 main_v72 main_v73 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_17 (constant S_ .f32 0x00000000#32),
    binary main_v73 main_cst_17 main_v74 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_18 (constant S_ .f32 0x46000000#32),
    binary main_v74 main_cst_18 main_v75 (Host.divf : (⟨S_, .f32⟩ : BufTy).Contents (Elt F) → (⟨S_, .f32⟩ : BufTy).Contents (Elt F) → (⟨S_, .f32⟩ : BufTy).Contents (Elt F)),
    unary main_v75 main_v76 (Host.negf : (⟨S_, .f32⟩ : BufTy).Contents (Elt F) → (⟨S_, .f32⟩ : BufTy).Contents (Elt F)) ]

attribute [local irreducible] Host.reduce in
set_option maxRecDepth 100000 in
/-- The operation list is the stretches one after the other: an operation of an inlined function, stated over
    typed references, is the plain operation at the same buffers. -/
theorem ops_eq : ValueP.ops (F := F)
    = c1 ++ (c2 ++ (c3 ++ (c4 ++ (c5 ++ (c6 ++ (c7 ++ (c8 ++ (c9 ++ (c10 ++ (c11 ++ (c12 ++ (c13 ++ (c14 ++ c15))))))))))))) := rfl

/-! ## What the live buffers hold after each stretch

`Sk x0 x1 V`: in the contents `V` every buffer written (or given) so far that a later operation reads holds its
stage value of the arguments `x0`, `x1`. -/

section Stretches

local notation:max "⟪" r "⟫" => (r : DevRef τ sig)

variable (x0 x1 : (⟨S4096x256, .f32⟩ : BufTy).Contents (Elt F)) (V : Valuation τ sig (Elt F))

def S0 : Prop := V ⟪main_arg0⟫ = x0 ∧ V ⟪main_arg1⟫ = x1
def S1 : Prop := V ⟪main_arg1⟫ = x1 ∧ V ⟪main_v4⟫ = val_main_v4 x0
def S2 : Prop := V ⟪main_v4⟫ = val_main_v4 x0 ∧ V ⟪main_v9⟫ = val_main_v9 x1
def S3 : Prop := V ⟪main_v4⟫ = val_main_v4 x0 ∧ V ⟪main_v9⟫ = val_main_v9 x1 ∧ V ⟪main_v13⟫ = val_main_v13 x0
def S4 : Prop := V ⟪main_v4⟫ = val_main_v4 x0 ∧ V ⟪main_v9⟫ = val_main_v9 x1 ∧ V ⟪main_v13⟫ = val_main_v13 x0
  ∧ V ⟪main_v17⟫ = val_main_v17 x1
def S5 : Prop := V ⟪main_v13⟫ = val_main_v13 x0 ∧ V ⟪main_v17⟫ = val_main_v17 x1 ∧ V ⟪main_v21⟫ = val_main_v21 x0 x1
def S6 : Prop := V ⟪main_v13⟫ = val_main_v13 x0 ∧ V ⟪main_v17⟫ = val_main_v17 x1 ∧ V ⟪main_v21⟫ = val_main_v21 x0 x1
  ∧ V ⟪main_v22⟫ = val_main_v22 ∧ V ⟪main_v33⟫ = val_main_v33 ∧ V ⟪main_v34⟫ = val_main_v34
def S7 : Prop := V ⟪main_v17⟫ = val_main_v17 x1 ∧ V ⟪main_v21⟫ = val_main_v21 x0 x1 ∧ V ⟪main_v22⟫ = val_main_v22
  ∧ V ⟪main_v37⟫ = val_main_v37 x0
def S8 : Prop := V ⟪main_v17⟫ = val_main_v17 x1 ∧ V ⟪main_v21⟫ = val_main_v21 x0 x1 ∧ V ⟪main_v37⟫ = val_main_v37 x0
  ∧ V ⟪main_v48⟫ = val_main_v48 ∧ V ⟪main_v49⟫ = val_main_v49
def S9 : Prop := V ⟪main_v21⟫ = val_main_v21 x0 x1 ∧ V ⟪main_v37⟫ = val_main_v37 x0 ∧ V ⟪main_v52⟫ = val_main_v52 x1
def S10 : Prop := V ⟪main_v52⟫ = val_main_v52 x1 ∧ V ⟪main_v53⟫ = val_main_v53 x0 x1 ∧ V ⟪main_v54⟫ = val_main_v54 x0 x1
def S11 : Prop := V ⟪main_v53⟫ = val_main_v53 x0 x1 ∧ V ⟪main_v55⟫ = val_main_v55 x0 x1
def S12 : Prop := V ⟪main_v56⟫ = val_main_v56 x0 x1 ∧ V ⟪main_v57⟫ = val_main_v57
  ∧ V ⟪main_call2_v4⟫ = val_main_call2_v4 x0 x1
def S13 : Prop := V ⟪main_v57⟫ = val_main_v57 ∧ V ⟪main_v58⟫ = val_main_v58 x0 x1
def S14 : Prop := V ⟪main_v58⟫ = val_main_v58 x0 x1 ∧ V ⟪main_v70⟫ = val_main_v70 ∧ V ⟪main_v71⟫ = val_main_v71
def S15 : Prop := V ⟪main_v76⟫ = val_main_v76 x0 x1

variable {x0 x1 V}

theorem step1 (h : S0 x0 x1 V) : S1 x0 x1 (after c1 V) := by
  obtain ⟨a0, a1⟩ := h
  refine ⟨?_, ?_⟩
  · after_results_simp; exact a1
  · after_results_simp; rw [a0]; rfl

theorem step2 (h : S1 x0 x1 V) : S2 x0 x1 (after c2 V) := by
  obtain ⟨a1, h4⟩ := h
  refine ⟨?_, ?_⟩
  · after_results_simp; exact h4
  · after_results_simp; rw [a1]; rfl

theorem step3 (h : S2 x0 x1 V) : S3 x0 x1 (after c3 V) := by
  obtain ⟨h4, h9⟩ := h
  refine ⟨?_, ?_, ?_⟩
  · after_results_simp; exact h4
  · after_results_simp; exact h9
  · after_results_simp; rw [h4]; rfl

theorem step4 (h : S3 x0 x1 V) : S4 x0 x1 (after c4 V) := by
  obtain ⟨h4, h9, h13⟩ := h
  refine ⟨?_, ?_, ?_, ?_⟩
  · after_results_simp; exact h4
  · after_results_simp; exact h9
  · after_results_simp; exact h13
  · after_results_simp; rw [h9]; rfl

theorem step5 (h : S4 x0 x1 V) : S5 x0 x1 (after c5 V) := by
  obtain ⟨h4, h9, h13, h17⟩ := h
  refine ⟨?_, ?_, ?_⟩
  · after_results_simp; exact h13
  · after_results_simp; exact h17
  · after_results_simp; rw [h4, h9]; rfl

theorem step6 (h : S5 x0 x1 V) : S6 x0 x1 (after c6 V) := by
  obtain ⟨h13, h17, h21⟩ := h
  refine ⟨?_, ?_, ?_, ?_, ?_, ?_⟩
  · after_results_simp; exact h13
  · after_results_simp; exact h17
  · after_results_simp; exact h21
  · after_results_simp; rfl
  · after_results_simp; rfl
  · after_results_simp; rfl

theorem step7 (h : S6 x0 x1 V) : S7 x0 x1 (after c7 V) := by
  obtain ⟨h13, h17, h21, h22, h33, h34⟩ := h
  refine ⟨?_, ?_, ?_, ?_⟩
  · after_results_simp; exact h17
  · after_results_simp; exact h21
  · after_results_simp; exact h22
  · after_results_simp; rw [h13, h33, h34]; rfl

theorem step8 (h : S7 x0 x1 V) : S8 x0 x1 (after c8 V) := by
  obtain ⟨h17, h21, h22, h37⟩ := h
  refine ⟨?_, ?_, ?_, ?_, ?_⟩
  · after_results_simp; exact h17
  · after_results_simp; exact h21
  · after_results_simp; exact h37
  · after_results_simp; rw [h22]; rfl
  · after_results_simp; rw [h22]; rfl

theorem step9 (h : S8 x0 x1 V) : S9 x0 x1 (after c9 V) := by
  obtain ⟨h17, h21, h37, h48, h49⟩ := h
  refine ⟨?_, ?_, ?_⟩
  · after_results_simp; exact h21
  · after_results_simp; exact h37
  · after_results_simp; rw [h17, h48, h49]; rfl

theorem step10 (h : S9 x0 x1 V) : S10 x0 x1 (after c10 V) := by
  obtain ⟨h21, h37, h52⟩ := h
  refine ⟨?_, ?_, ?_⟩
  · after_results_simp; exact h52
  · after_results_simp; rw [h21, h37]; rfl
  · after_results_simp; rw [h21]; rfl

theorem step11 (h : S10 x0 x1 V) : S11 x0 x1 (after c11 V) := by
  obtain ⟨h52, h53, h54⟩ := h
  refine ⟨?_, ?_⟩
  · after_results_simp; exact h53
  · after_results_simp; rw [h52, h54]; rfl

theorem step12 (h : S11 x0 x1 V) : S12 x0 x1 (after c12 V) := by
  obtain ⟨h53, h55⟩ := h
  refine ⟨?_, ?_, ?_⟩
  · after_results_simp; rw [h53, h55]; rfl
  · after_results_simp; rfl
  · after_results_simp; rw [h53, h55]; rfl

theorem step13 (h : S12 x0 x1 V) : S13 x0 x1 (after c13 V) := by
  obtain ⟨h56, h57, hc4⟩ := h
  refine ⟨?_, ?_⟩
  · after_results_simp; exact h57
  · after_results_simp; rw [h56, hc4]; rfl

theorem step14 (h : S13 x0 x1 V) : S14 x0 x1 (after c14 V) := by
  obtain ⟨h57, h58⟩ := h
  refine ⟨?_, ?_, ?_⟩
  · after_results_simp; exact h58
  · after_results_simp; rfl
  · after_results_simp; rw [h57]; rfl

theorem step15 (h : S14 x0 x1 V) : S15 x0 x1 (after c15 V) := by
  obtain ⟨h58, h70, h71⟩ := h
  show after c15 V ⟪main_v76⟫ = val_main_v76 x0 x1
  after_results_simp; rw [h58, h70, h71]; rfl

end Stretches

/-! ## Every operation determines its results -/

theorem fresh1 : ∀ op ∈ (c1 : List (HloOp τ sig (Elt F))), op.fresh = ∅ := by
  intro _ h; (repeat (cases h with | head => rfl | tail _ h => ?_)); exact nomatch h
theorem fresh2 : ∀ op ∈ (c2 : List (HloOp τ sig (Elt F))), op.fresh = ∅ := by
  intro _ h; (repeat (cases h with | head => rfl | tail _ h => ?_)); exact nomatch h
theorem fresh3 : ∀ op ∈ (c3 : List (HloOp τ sig (Elt F))), op.fresh = ∅ := by
  intro _ h; (repeat (cases h with | head => rfl | tail _ h => ?_)); exact nomatch h
theorem fresh4 : ∀ op ∈ (c4 : List (HloOp τ sig (Elt F))), op.fresh = ∅ := by
  intro _ h; (repeat (cases h with | head => rfl | tail _ h => ?_)); exact nomatch h
theorem fresh5 : ∀ op ∈ (c5 : List (HloOp τ sig (Elt F))), op.fresh = ∅ := by
  intro _ h; (repeat (cases h with | head => rfl | tail _ h => ?_)); exact nomatch h
theorem fresh6 : ∀ op ∈ (c6 : List (HloOp τ sig (Elt F))), op.fresh = ∅ := by
  intro _ h; (repeat (cases h with | head => rfl | tail _ h => ?_)); exact nomatch h
theorem fresh7 : ∀ op ∈ (c7 : List (HloOp τ sig (Elt F))), op.fresh = ∅ := by
  intro _ h; (repeat (cases h with | head => rfl | tail _ h => ?_)); exact nomatch h
theorem fresh8 : ∀ op ∈ (c8 : List (HloOp τ sig (Elt F))), op.fresh = ∅ := by
  intro _ h; (repeat (cases h with | head => rfl | tail _ h => ?_)); exact nomatch h
theorem fresh9 : ∀ op ∈ (c9 : List (HloOp τ sig (Elt F))), op.fresh = ∅ := by
  intro _ h; (repeat (cases h with | head => rfl | tail _ h => ?_)); exact nomatch h
theorem fresh10 : ∀ op ∈ (c10 : List (HloOp τ sig (Elt F))), op.fresh = ∅ := by
  intro _ h; (repeat (cases h with | head => rfl | tail _ h => ?_)); exact nomatch h
theorem fresh11 : ∀ op ∈ (c11 : List (HloOp τ sig (Elt F))), op.fresh = ∅ := by
  intro _ h; (repeat (cases h with | head => rfl | tail _ h => ?_)); exact nomatch h
theorem fresh12 : ∀ op ∈ (c12 : List (HloOp τ sig (Elt F))), op.fresh = ∅ := by
  intro _ h; (repeat (cases h with | head => rfl | tail _ h => ?_)); exact nomatch h
theorem fresh13 : ∀ op ∈ (c13 : List (HloOp τ sig (Elt F))), op.fresh = ∅ := by
  intro _ h; (repeat (cases h with | head => rfl | tail _ h => ?_)); exact nomatch h
theorem fresh14 : ∀ op ∈ (c14 : List (HloOp τ sig (Elt F))), op.fresh = ∅ := by
  intro _ h; (repeat (cases h with | head => rfl | tail _ h => ?_)); exact nomatch h
theorem fresh15 : ∀ op ∈ (c15 : List (HloOp τ sig (Elt F))), op.fresh = ∅ := by
  intro _ h; (repeat (cases h with | head => rfl | tail _ h => ?_)); exact nomatch h

theorem ops_fresh : ∀ op ∈ (ValueP.ops (F := F)), op.fresh = ∅ := by
  rw [ops_eq]
  simp only [List.mem_append]
  rintro op (h | h | h | h | h | h | h | h | h | h | h | h | h | h | h)
  exacts [fresh1 op h, fresh2 op h, fresh3 op h, fresh4 op h, fresh5 op h, fresh6 op h, fresh7 op h, fresh8 op h,
    fresh9 op h, fresh10 op h, fresh11 op h, fresh12 op h, fresh13 op h, fresh14 op h, fresh15 op h]

/-! ## The whole fold -/

/-- After all 120 operations the result buffer holds the last stage of the two arguments' contents. -/
theorem fold_v76 (V : Valuation τ sig (Elt F)) :
    after (ValueP.ops (F := F)) V (main_v76 : DevRef τ sig)
      = val_main_v76 (F := F) (V (main_arg0 : DevRef τ sig)) (V (main_arg1 : DevRef τ sig)) := by
  rw [ops_eq]
  simp only [after_app]
  exact step15 (step14 (step13 (step12 (step11 (step10 (step9 (step8 (step7 (step6 (step5 (step4 (step3 (step2
    (step1 ⟨rfl, rfl⟩))))))))))))))

set_option maxRecDepth 200000 in
set_option maxHeartbeats 4000000 in
/-- No operation writes the first argument. -/
theorem fold_arg0 (V : Valuation τ sig (Elt F)) :
    after (ValueP.ops (F := F)) V (main_arg0 : DevRef τ sig) = V (main_arg0 : DevRef τ sig) := by
  after_results_simp

set_option maxRecDepth 200000 in
set_option maxHeartbeats 4000000 in
/-- No operation writes the second argument. -/
theorem fold_arg1 (V : Valuation τ sig (Elt F)) :
    after (ValueP.ops (F := F)) V (main_arg1 : DevRef τ sig) = V (main_arg1 : DevRef τ sig) := by
  after_results_simp

/-- On every device, for any float values, from any memory with zero counters: every weakly fair execution of
    @main terminates with the result buffer at the last stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
        = Cert.ReferenceIdeal.ReadP.val_main_v76 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v76).trans (fold_v76 (launchContents m c)),
      (h c main_arg0).trans (fold_arg0 (launchContents m c)),
      (h c main_arg1).trans (fold_arg1 (launchContents m c))⟩)
    (run_seq ValueP.scopedRefs_eq ValueP.scopedSems_eq defs main (fun _ => ValueP.ops) ValueP.main_eq
      (fun _ => ValueP.ops_sub) m ρ (fun _ => ops_fresh))

end Cert.ReferenceIdeal.RunAlt

end
-- ==== Proof.Spec.lean ====
/-
  The contrastive (InfoNCE) loss of two 4096 × 256 arrays, written twice as plain mathematics on the extended reals:
  once in the order in which a row-tiled evaluation takes it (`lossK`: per row the joint log-sum-exp of two
  length-4096 rows, rows summed tile by tile), and once as the log-softmax of the 8192 × 8192 score matrix read on its
  diagonal (`lossR`). Rows are first scaled to unit length, the norm clamped below by a small constant.
  No program is mentioned here; the float constants are kept as their binary words.
-/
import Idealize.ShloMosaic.PureOps.Ideal
import Idealize.ShloMosaic.PureOps.Ideal.Laws
import Idealize.ShloMosaic.Lib.ValueIdx

noncomputable section

namespace Cert.Spec

open Idealize.ShloMosaic

/-- A 4096 × 256 array of extended reals, by row and column. -/
abbrev Arr : Type := Fin 4096 → Fin 256 → EReal

/-- The same array indexed by a rank-2 index. -/
def ofVec (X : (⟨2, ![4096, 256]⟩ : Shape).Idx → EReal) : Arr := fun i k => X (ValueIdx.ix2 i k)

/-- ... and back. -/
def toVec (A : Arr) : (⟨2, ![4096, 256]⟩ : Shape).Idx → EReal :=
  fun j => A ⟨(j 0).val, ValueIdx.idx2_lt0 j⟩ ⟨(j 1).val, ValueIdx.idx2_lt1 j⟩

theorem toVec_ofVec (X : (⟨2, ![4096, 256]⟩ : Shape).Idx → EReal) : toVec (ofVec X) = X := by
  funext j
  show X (ValueIdx.ix2 _ _) = X j
  exact congrArg X (ValueIdx.eq_ix2 j).symm

theorem ofVec_toVec (A : Arr) : ofVec (toVec A) = A := rfl

/-- The clamp on a row's norm, the scale of the scores, and the number of rows of the score matrix, as float words. -/
def epsC : EReal := Ideal.ofBits .f32 0x322BCC77#32
def twoC : EReal := Ideal.ofBits .f32 0x40000000#32
def cntC : EReal := Ideal.ofBits .f32 0x46000000#32

/-- Each row divided by its Euclidean norm, the norm clamped below by `epsC`. -/
def unitRows (x : Arr) : Arr :=
  fun i k => Ideal.div (x i k) (max (Ideal.sqrt (∑ l : Fin 256, x i l * x i l)) epsC)

/-- The scaled inner product of row `i` of `a` with row `j` of `b`. -/
def sim (a b : Arr) (i j : Fin 4096) : EReal := (∑ k : Fin 256, a i k * b j k) * twoC

/-- The scaled inner products of `a`'s rows with one another, the diagonal at −∞. -/
def simOff (a : Arr) (i j : Fin 4096) : EReal := if i = j then ⊥ else sim a a i j

/-- The largest of finitely many extended reals (−∞ for none), as a fold of `max`. -/
def top {n : Nat} (f : Fin n → EReal) : EReal := (Finset.univ : Finset (Fin n)).fold max ⊥ f

/-- The log-sum-exp of two length-4096 rows taken together, shifted by their joint maximum. -/
def lse2 (f g : Fin 4096 → EReal) : EReal :=
  max (top f) (top g)
    + Ideal.log ((∑ j : Fin 4096, Ideal.exp (f j - max (top f) (top g))) + ∑ j : Fin 4096, Ideal.exp (g j - max (top f) (top g)))

/-- Row `i`'s term of the first half: its matching score less the log-sum-exp of (a·b, a·a off the diagonal). -/
def rowX (a b : Arr) (i : Fin 4096) : EReal := sim a b i i - lse2 (sim a b i) (simOff a i)

/-- Row `i`'s term of the second half: its matching score less the log-sum-exp of (b·b off the diagonal, b·a). -/
def rowY (a b : Arr) (i : Fin 4096) : EReal := sim a b i i - lse2 (simOff b i) (sim b a i)

/-- Row `128 t + r`: row `r` of tile `t`. -/
def rowOf (t : Fin 32) (r : Fin 128) : Fin 4096 := ⟨128 * t.val + r.val, by have := t.isLt; have := r.isLt; omega⟩

/-- One tile's contribution: its 128 first-half terms, then its 128 second-half terms. -/
def part (a b : Arr) (t : Fin 32) : EReal :=
  (∑ r : Fin 128, rowX a b (rowOf t r)) + ∑ r : Fin 128, rowY a b (rowOf t r)

/-- The loss in tile order: the tiles' contributions summed, negated, divided by the row count. -/
def lossK (a b : Arr) : EReal := Ideal.div (-(∑ t : Fin 32, part a b t)) cntC

/-- The 8192 × 8192 score matrix: [a·b | a·a off-diagonal] over [b·b off-diagonal | (a·b) transposed]. -/
def score (a b : Arr) (p q : Fin 8192) : EReal :=
  if hp : p.val < 4096 then
    if hq : q.val < 4096 then sim a b ⟨p.val, hp⟩ ⟨q.val, hq⟩
    else simOff a ⟨p.val, hp⟩ ⟨q.val - 4096, by have := q.isLt; omega⟩
  else
    if hq : q.val < 4096 then simOff b ⟨p.val - 4096, by have := p.isLt; omega⟩ ⟨q.val, hq⟩
    else sim a b ⟨q.val - 4096, by have := q.isLt; omega⟩ ⟨p.val - 4096, by have := p.isLt; omega⟩

/-- The log-softmax of row `p` of the score matrix, read on the diagonal. -/
def logp (a b : Arr) (p : Fin 8192) : EReal :=
  (score a b p p - top (score a b p)) - Ideal.log (∑ q : Fin 8192, Ideal.exp (score a b p q - top (score a b p)))

/-- The loss as the mean of the diagonal log-probabilities, negated. -/
def lossR (a b : Arr) : EReal := -(Ideal.div (∑ p : Fin 8192, logp a b p) cntC)

end Cert.Spec

end
-- ==== Proof.Reg0Value.lean ====
/-
  The first kernel's two result arrays, at the ideal values, for ANY contents the region is entered with: each is its
  argument with every row divided by its clamped Euclidean norm. Four row blocks of 1024 rows tile each array; a block
  is one whole-block store of a row-wise expression of the matching input block.
-/
import proofs.«115458_j2911987827023_1_alg».proof.Proof.Gen.KernelIdeal.Frame
import proofs.«115458_j2911987827023_1_alg».proof.Proof.Spec
import Idealize.ShloMosaic.Lib.Pipeline.Value
import Idealize.ShloMosaic.PureOps.Ideal.Laws
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Reg

open Cert.KernelIdeal Cert.KernelIdeal.Gen
open Idealize.ShloMosaic.ValueIdx

variable (V : (c : Dev nD) → (b : Ref sig .tc) → Buf (Elt Ideal) ((c : Thread nD τ).loc b))

/-- A length-1024 vector recast as a 1024 × 1 column reads, at (r, 0), the vector at r. -/
theorem col_cast_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    omega)

/-- A 1024 × 1 column broadcast along its unit axis reads, at (r, k), the column at (r, 0). -/
theorem col_bcast_apply {α : Type} (v : S1024x1.Idx → α) (h : S1024x1.Broadcasts S1024x256) (r : Fin 1024) (k : Fin 256) :
    broadcastTo S1024x256 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- The sum of squares of row r of a block, as the row reduction reads it. -/
theorem row_sq_apply (x : FVec Ideal S1024x256 .f32) (hacc : (0x00000000#32 : BitVec 32) = 0x00000000#32) (r : Fin 1024) :
    multiReduction .add [1] S1024 (mulf x x) 0x00000000#32 reduces_S1024x256_S1024 (.inl rfl) hacc (ix1 r)
      = ∑ l : Fin 256, x (ix2 r l) * x (ix2 r l) := by
  refine (Ideal.multiReduction_add_single (mulf x x) 0x00000000#32 reduces_S1024x256_S1024 (.inl rfl) hacc (ix1 r)).trans ?_
  show ∑ l : Fin 256, _ = _
  refine Finset.sum_congr rfl fun l _ => ?_
  have e : reduces_S1024x256_S1024.lift (ix1 r) l = ix2 r l := by
    funext a; apply Fin.ext
    match a with
    | ⟨0, _⟩ => rfl
    | ⟨1, _⟩ => rfl
  rw [e]; rfl

/-- The first stored value at (r, k): the block's entry divided by its row's clamped Euclidean norm. -/
theorem pay1_apply (x : FVec Ideal S1024x256 .f32) (r : Fin 1024) (k : Fin 256) :
    k0_pay1 (F := Ideal) x (ix2 r k)
      = Ideal.div (x (ix2 r k)) (max (Ideal.sqrt (∑ l : Fin 256, x (ix2 r l) * x (ix2 r l))) Cert.Spec.epsC) := by
  unfold k0_pay1
  show Ideal.div (x (ix2 r k)) (broadcastTo S1024x256 _ broadcasts_S1024x1_S1024x256 (ix2 r k)) = _
  rw [col_bcast_apply]
  show Ideal.div (x (ix2 r k)) (max (Ideal.sqrt (shapeCast S1024x1 _ shapeCasts_S1024_S1024x1 (ix2 r (0 : Fin 1)))) _) = _
  rw [col_cast_apply, row_sq_apply]
  rfl

/-- The second stored value at (r, k): the same expression of the second block. -/
theorem pay2_apply (x : FVec Ideal S1024x256 .f32) (r : Fin 1024) (k : Fin 256) :
    k0_pay2 (F := Ideal) x (ix2 r k)
      = Ideal.div (x (ix2 r k)) (max (Ideal.sqrt (∑ l : Fin 256, x (ix2 r l) * x (ix2 r l))) Cert.Spec.epsC) := by
  unfold k0_pay2
  show Ideal.div (x (ix2 r k)) (broadcastTo S1024x256 _ broadcasts_S1024x1_S1024x256 (ix2 r k)) = _
  rw [col_bcast_apply]
  show Ideal.div (x (ix2 r k)) (max (Ideal.sqrt (shapeCast S1024x1 _ shapeCasts_S1024_S1024x1 (ix2 r (0 : Fin 1)))) _) = _
  rw [col_cast_apply, row_sq_apply]
  rfl

/-! ## From the blocks to the arrays -/

/-- The array each result ends holding, as a function of the matching argument array: rows scaled to unit length. -/
abbrev unitArr (X : S4096x256.Idx → EReal) : S4096x256.Idx → EReal :=
  Cert.Spec.toVec (Cert.Spec.unitRows (Cert.Spec.ofVec X))

/-- The zero offsets, as a constant function. -/
theorem zero_offsets : (![0, 0] : Fin 2 → Nat) = fun _ => 0 :=
  funext fun a => match a with | ⟨0, _⟩ => rfl | ⟨1, _⟩ => rfl

/-- The windows' block indices over the grid: at point t every window's block is row block t, column block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A block of 1024 rows that is rows 1024 b … 1024 b + 1023 of an array X: the first stored value of that block
    at j is the unit-row array of X at the matching array index i. -/
theorem pay1_of_rows (x : FVec Ideal S1024x256 .f32) (X : S4096x256.Idx → EReal) (b : Nat) (hb : b < 4)
    (hx : ∀ (r : Fin 1024) (l : Fin 256), x (ix2 r l) = X (ix2 (⟨1024 * b + r.val, by omega⟩ : Fin 4096) l))
    (j : S1024x256.Idx) (i : S4096x256.Idx) (h0 : (i 0).val = 1024 * b + (j 0).val) (h1 : (i 1).val = (j 1).val) :
    k0_pay1 (F := Ideal) x j = unitArr X i := by
  obtain ⟨r, k, rfl⟩ : ∃ (r : Fin 1024) (k : Fin 256), j = ix2 r k := ⟨j 0, j 1, eq_ix2 j⟩
  rw [pay1_apply]
  have hr : (⟨(i 0).val, idx2_lt0 i⟩ : Fin 4096) = ⟨1024 * b + r.val, by omega⟩ := Fin.ext h0
  have hk : (⟨(i 1).val, idx2_lt1 i⟩ : Fin 256) = k := Fin.ext h1
  show _ = Cert.Spec.unitRows (Cert.Spec.ofVec X) ⟨(i 0).val, idx2_lt0 i⟩ ⟨(i 1).val, idx2_lt1 i⟩
  rw [hr, hk]
  unfold Cert.Spec.unitRows Cert.Spec.ofVec
  rw [hx r k]
  simp only [hx r]

/-- The same for the second stored value. -/
theorem pay2_of_rows (x : FVec Ideal S1024x256 .f32) (X : S4096x256.Idx → EReal) (b : Nat) (hb : b < 4)
    (hx : ∀ (r : Fin 1024) (l : Fin 256), x (ix2 r l) = X (ix2 (⟨1024 * b + r.val, by omega⟩ : Fin 4096) l))
    (j : S1024x256.Idx) (i : S4096x256.Idx) (h0 : (i 0).val = 1024 * b + (j 0).val) (h1 : (i 1).val = (j 1).val) :
    k0_pay2 (F := Ideal) x j = unitArr X i := by
  obtain ⟨r, k, rfl⟩ : ∃ (r : Fin 1024) (k : Fin 256), j = ix2 r k := ⟨j 0, j 1, eq_ix2 j⟩
  rw [pay2_apply]
  have hr : (⟨(i 0).val, idx2_lt0 i⟩ : Fin 4096) = ⟨1024 * b + r.val, by omega⟩ := Fin.ext h0
  have hk : (⟨(i 1).val, idx2_lt1 i⟩ : Fin 256) = k := Fin.ext h1
  show _ = Cert.Spec.unitRows (Cert.Spec.ofVec X) ⟨(i 0).val, idx2_lt0 i⟩ ⟨(i 1).val, idx2_lt1 i⟩
  rw [hr, hk]
  unfold Cert.Spec.unitRows Cert.Spec.ofVec
  rw [hx r k]
  simp only [hx r]

/-- The first input window's block at point t is rows 1024 t … 1024 t + 1023 of the first argument. -/
theorem in0_apply (c : Dev nD) (t : Fin cfg0.N) (r : Fin 1024) (l : Fin 256) (i : Fin 4096)
    (hi : i.val = 1024 * t.val + r.val) :
    (iblk0 (F := Ideal) V c 0 t : Vec Ideal S1024x256 .f32) (ix2 r l) = (V c main_arg0 : S4096x256.Idx → EReal) (ix2 i l) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 1024 + 1 * r.val = i.val; rw [e0, hi]; omega
  | ⟨1, _⟩ => show win0_0.index t (1 : Fin 2) * 256 + 1 * l.val = l.val; rw [e1]; omega

/-- The second input window's block at point t is rows 1024 t … 1024 t + 1023 of the second argument. -/
theorem in1_apply (c : Dev nD) (t : Fin cfg0.N) (r : Fin 1024) (l : Fin 256) (i : Fin 4096)
    (hi : i.val = 1024 * t.val + r.val) :
    (iblk0 (F := Ideal) V c 1 t : Vec Ideal S1024x256 .f32) (ix2 r l) = (V c main_arg1 : S4096x256.Idx → EReal) (ix2 i l) := by
  obtain ⟨-, -, e0, e1, -⟩ := block_indices t
  unfold iblk0
  rw [View.read_apply]
  show V c main_arg1 _ = V c main_arg1 _
  congr 1
  funext a
  apply Fin.ext
  match a with
  | ⟨0, _⟩ => show win0_1.index t (0 : Fin 2) * 1024 + 1 * r.val = i.val; rw [e0, hi]; omega
  | ⟨1, _⟩ => show win0_1.index t (1 : Fin 2) * 256 + 1 * l.val = l.val; rw [e1]; omega

/-- The grid has four points. -/
theorem point_lt (t : Fin cfg0.N) : t.val < 4 := by
  have h : t.val < grid0.N := t.isLt
  rw [N_0] at h
  exact h

/-- What point t writes back to the first result is block t of the unit-row array of the first argument. -/
theorem flushed2_eq (c : Dev nD) (t : Fin cfg0.N) :
    (dat0 (F := Ideal) V c).flushed 2 t = ((cfg0.win 2).blk t).view.read (Elt Ideal) (unitArr (V c main_arg0)) := by
  show (cfg0.win 2).cut (grid0.coords t) ((dat0 (F := Ideal) V c).after 2 t) = _
  rw [after0_2]
  unfold out0_2
  rw [View.canon_unit_zero zero_offsets]
  simp only [View.ld_unit_zero (S := S1024x256) zero_offsets]
  obtain ⟨-, -, -, -, e4, e5, -⟩ := block_indices t
  funext j
  show k0_pay1 (F := Ideal) (iblk0 (F := Ideal) V c 0 t) j = unitArr (V c main_arg0) (((cfg0.win 2).blk t).view.emb j)
  refine pay1_of_rows (iblk0 (F := Ideal) V c 0 t) (V c main_arg0) t.val (point_lt t)
    (fun r l => in0_apply V c t r l ⟨1024 * t.val + r.val, by have := point_lt t; omega⟩ rfl) j (((cfg0.win 2).blk t).view.emb j) ?_ ?_
  · show win0_2.index t (0 : Fin 2) * 1024 + 1 * (j 0).val = 1024 * t.val + (j 0).val
    rw [e4]; omega
  · show win0_2.index t (1 : Fin 2) * 256 + 1 * (j 1).val = (j 1).val
    rw [e5]; omega

/-- What point t writes back to the second result is block t of the unit-row array of the second argument. -/
theorem flushed3_eq (c : Dev nD) (t : Fin cfg0.N) :
    (dat0 (F := Ideal) V c).flushed 3 t = ((cfg0.win 3).blk t).view.read (Elt Ideal) (unitArr (V c main_arg1)) := by
  show (cfg0.win 3).cut (grid0.coords t) ((dat0 (F := Ideal) V c).after 3 t) = _
  rw [after0_3]
  unfold out0_3
  rw [View.canon_unit_zero zero_offsets]
  simp only [View.ld_unit_zero (S := S1024x256) zero_offsets]
  obtain ⟨-, -, -, -, -, -, e6, e7⟩ := block_indices t
  funext j
  show k0_pay2 (F := Ideal) (iblk0 (F := Ideal) V c 1 t) j = unitArr (V c main_arg1) (((cfg0.win 3).blk t).view.emb j)
  refine pay2_of_rows (iblk0 (F := Ideal) V c 1 t) (V c main_arg1) t.val (point_lt t)
    (fun r l => in1_apply V c t r l ⟨1024 * t.val + r.val, by have := point_lt t; omega⟩ rfl) j (((cfg0.win 3).blk t).view.emb j) ?_ ?_
  · show win0_3.index t (0 : Fin 2) * 1024 + 1 * (j 0).val = 1024 * t.val + (j 0).val
    rw [e6]; omega
  · show win0_3.index t (1 : Fin 2) * 256 + 1 * (j 1).val = (j 1).val
    rw [e7]; omega

/-- An index of the first result is in point t's block iff each coordinate is in the block's range on its axis. -/
theorem mem_blk2 (t : Fin cfg0.N) (i : S4096x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0_0).slice (win0_2.rect t)).set ↔ _
  rw [View.set_slice_whole, Rect.mem_set_unit]
  exact Iff.rfl

/-- The same for the second result. -/
theorem mem_blk3 (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_1).slice (win0_3.rect t)).set ↔ _
  rw [View.set_slice_whole, Rect.mem_set_unit]
  exact Iff.rfl

/-- Row r of either result lies in the block of point r / 1024. -/
theorem cover2 (i : S4096x256.Idx) : ∃ t : Fin cfg0.N, (cfg0.win 2).flush t = true ∧ i ∈ ((cfg0.win 2).blk t).view.set := by
  have h0 : (i 0).val < 4096 := idx2_lt0 i
  have h1 : (i 1).val < 256 := idx2_lt1 i
  have hN : grid0.N = 4 := N_0
  obtain ⟨t, ht⟩ : ∃ t : Fin cfg0.N, t.val = (i 0).val / 1024 := ⟨⟨(i 0).val / 1024, by show _ < grid0.N; omega⟩, rfl⟩
  obtain ⟨-, -, -, -, e4, e5, -⟩ := block_indices t
  refine ⟨t, flush0_2 t, ?_⟩
  rw [mem_blk2]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 256 ≤ (i 1).val ∧ (i 1).val < win0_2.index t (1 : Fin 2) * 256 + 256
    rw [e5]; omega

/-- The same for the second result. -/
theorem cover3 (i : S4096x256.Idx) : ∃ t : Fin cfg0.N, (cfg0.win 3).flush t = true ∧ i ∈ ((cfg0.win 3).blk t).view.set := by
  have h0 : (i 0).val < 4096 := idx2_lt0 i
  have h1 : (i 1).val < 256 := idx2_lt1 i
  have hN : grid0.N = 4 := N_0
  obtain ⟨t, ht⟩ : ∃ t : Fin cfg0.N, t.val = (i 0).val / 1024 := ⟨⟨(i 0).val / 1024, by show _ < grid0.N; omega⟩, rfl⟩
  obtain ⟨-, -, -, -, -, -, e6, e7⟩ := block_indices t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 256 ≤ (i 1).val ∧ (i 1).val < win0_3.index t (1 : Fin 2) * 256 + 256
    rw [e7]; omega

/-- The first result array after the region: the first argument with every row scaled to unit length. -/
theorem arr0_2 (c : Dev nD) :
    (dat0 (F := Ideal) V c).arrAt 2 cfg0.N = Cert.Spec.toVec (Cert.Spec.unitRows (Cert.Spec.ofVec (V c main_arg0))) :=
  (dat0 (F := Ideal) V c).arrAt_eq_of_cover 2 (unitArr (V c main_arg0)) (fun t _ => flushed2_eq V c t) cover2

/-- The second result array after the region: the second argument with every row scaled to unit length. -/
theorem arr0_3 (c : Dev nD) :
    (dat0 (F := Ideal) V c).arrAt 3 cfg0.N = Cert.Spec.toVec (Cert.Spec.unitRows (Cert.Spec.ofVec (V c main_arg1))) :=
  (dat0 (F := Ideal) V c).arrAt_eq_of_cover 3 (unitArr (V c main_arg1)) (fun t _ => flushed3_eq V c t) cover3

end Cert.KernelIdeal.Reg

end
-- ==== Proof.TileDefs.lean ====
/-
  One tile of the second kernel as a pure function of the two whole normalized arrays: the 128 rows the tile works
  on are a window of each array, and the tile's contribution is the body's arithmetic applied to them.
-/
import proofs.«115458_j2911987827023_1_alg».proof.Proof.Gen.KernelIdeal.Skeleton
import Idealize.ShloMosaic.Lib.Pipeline.Value

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F] [Named F]

/-- The 128 rows of a 4096-row array that tile `i` works on: rows `128 i … 128 i + 127`. -/
def rowsAt (i : grid1.Coords) (x : Vec F S4096x256 .bf16) : Vec F S128x256 .bf16 :=
  View.ld x (Rect.unit (s := S4096x256) (k1_off1 i) S128x256.size (k1_off1_inb i))

/-- One tile's contribution as the body computes it from the two whole arrays `x0` (first operand) and `x1` (second):
    the four score blocks, the diagonal, the two row maxima taken early, then the two log-sum-exp halves and their sum. -/
def partV (i : grid1.Coords) (x0 x1 : Vec F S4096x256 .bf16) : FVec F S1x1 .f32 :=
  k1_pay16 (k1_pay6 (rowsAt i x0) x1) (k1_pay7 (rowsAt i x1) x0) (k1_pay9 i (rowsAt i x0) x0) (k1_pay10 i (rowsAt i x1) x1)
    (k1_pay11 i (rowsAt i x0) x1) (k1_pay12 (rowsAt i x0) x1) (k1_pay13 i (rowsAt i x0) x0)

end Cert.KernelIdeal.Tile

end
-- ==== Proof.TileSims.lean ====
/-
  The score blocks of one tile read at an index, at the ideal values: each is the scaled inner product of a row of the
  tile with a row of the other array; the two masked blocks carry −∞ on the global diagonal; the diagonal sum picks the
  matching score; the early row maxima are folds of max.
-/
import proofs.«115458_j2911987827023_1_alg».proof.Proof.TileDefs
import proofs.«115458_j2911987827023_1_alg».proof.Proof.Gen.KernelIdeal.Launch
import proofs.«115458_j2911987827023_1_alg».proof.Proof.Spec
import Idealize.ShloMosaic.PureOps.Ideal.Laws
import Idealize.ShloMosaic.Lib.ValueIdx
import Idealize.ShloMosaic.Lib.ValueLayout
import Idealize.ShloMosaic.Lib.Affine

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Spec ValueIdx

/-- The tile a grid point stands for. -/
def tileOf (t : Fin cfg1.N) : Fin 32 := ⟨t.val, lt_of_lt_of_eq t.isLt N_1⟩

variable (t : Fin cfg1.N) (X Y : Vec Ideal S4096x256 .bf16)

/-- On a one-axis grid of 32 points the coordinate of a point is its number. -/
private theorem coords_val : ∀ t : Fin cfg1.N, ((grid1.coords t) 0).val = t.val := by decide

/-- The window of tile `t` reads rows `128 t + r` of the whole array. -/
private theorem rowsAt_apply (x : Vec Ideal S4096x256 .bf16) (r : Fin 128) (k : Fin 256) :
    rowsAt (grid1.coords t) x (ix2 r k) = ofVec x (rowOf (tileOf t) r) k := by
  unfold rowsAt ofVec
  show x _ = x _
  refine congrArg x (funext fun a => Fin.ext ?_)
  match a with
  | ⟨0, _⟩ =>
    show k1_off1 (grid1.coords t) 0 + 1 * r.val = 128 * t.val + r.val
    rw [k1_off1_eq, ← coords_val t]; simp
  | ⟨1, _⟩ =>
    show k1_off1 (grid1.coords t) 1 + 1 * k.val = k.val
    rw [k1_off1_eq]; simp

/-! The operand indices of the product: rows of the left operand against rows of the right one, contracted over the
    columns of both. -/

private theorem lhs_mm_0 (i : S128x4096.Idx) (q : dot_S128x256_S4096x256_S128x4096_1_1_0_0_n_n.contr.Idx) :
    (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide), dif_pos (show (0 : Fin S128x256.rank) ∈ dot_S128x256_S4096x256_S128x4096_1_1_0_0_n_n.lhsNonContracting by decide)]
  rfl
private theorem lhs_mm_1 (i : S128x4096.Idx) (q : dot_S128x256_S4096x256_S128x4096_1_1_0_0_n_n.contr.Idx) :
    (dot_S128x256_S4096x256_S128x4096_1_1_0_0_n_n.lhsIdx i q 1).val = (q ⟨0, by decide⟩).val :=
  dot_S128x256_S4096x256_S128x4096_1_1_0_0_n_n.lhsIdx_val_of_single rfl i q
private theorem rhs_mm_0 (i : S128x4096.Idx) (q : dot_S128x256_S4096x256_S128x4096_1_1_0_0_n_n.contr.Idx) :
    (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide), dif_pos (show (0 : Fin S4096x256.rank) ∈ dot_S128x256_S4096x256_S128x4096_1_1_0_0_n_n.rhsNonContracting by decide)]
  rfl
private theorem rhs_mm_1 (i : S128x4096.Idx) (q : dot_S128x256_S4096x256_S128x4096_1_1_0_0_n_n.contr.Idx) :
    (dot_S128x256_S4096x256_S128x4096_1_1_0_0_n_n.rhsIdx i q 1).val = (q ⟨0, by decide⟩).val :=
  dot_S128x256_S4096x256_S128x4096_1_1_0_0_n_n.rhsIdx_val_of_single rfl i q

/-- The product into a zero accumulator at `(r, j)`: the inner product of row `r` of the left operand with row `j` of
    the right one. -/
private theorem mm_apply (L : FVec Ideal S128x256 .bf16) (R : FVec Ideal S4096x256 .bf16) (r : Fin 128) (j : Fin 4096) :
    matmul dot_S128x256_S4096x256_S128x4096_1_1_0_0_n_n none L R (constant (F := Ideal) S128x4096 .f32 0x00000000#32) (ix2 r j)
      = ∑ k : Fin 256, L (ix2 r k) * R (ix2 j k) := by
  simp only [matmul]
  rw [Ideal.matmul_constant_zero_apply, ← Equiv.sum_comp (contrEquiv1 dot_S128x256_S4096x256_S128x4096_1_1_0_0_n_n 256 rfl rfl).symm]
  refine Finset.sum_congr rfl fun k _ => ?_
  have hk := contrEquiv1_symm_val dot_S128x256_S4096x256_S128x4096_1_1_0_0_n_n 256 rfl rfl k
  have el : dot_S128x256_S4096x256_S128x4096_1_1_0_0_n_n.lhsIdx (ix2 r j) ((contrEquiv1 dot_S128x256_S4096x256_S128x4096_1_1_0_0_n_n 256 rfl rfl).symm k) = ix2 r k := funext fun a => Fin.ext (by
    match a with
    | ⟨0, _⟩ => exact lhs_mm_0 _ _
    | ⟨1, _⟩ => exact (lhs_mm_1 _ _).trans hk)
  have er : dot_S128x256_S4096x256_S128x4096_1_1_0_0_n_n.rhsIdx (ix2 r j) ((contrEquiv1 dot_S128x256_S4096x256_S128x4096_1_1_0_0_n_n 256 rfl rfl).symm k) = ix2 j k := funext fun a => Fin.ext (by
    match a with
    | ⟨0, _⟩ => exact rhs_mm_0 _ _
    | ⟨1, _⟩ => exact (rhs_mm_1 _ _).trans hk)
  rw [el, er]

/-- The scaled product of a tile's rows with a whole array, read at `(r, j)`: the scaled inner product of row
    `128 t + r` of the first array with row `j` of the second. -/
private theorem scaled_apply (hl : S128x256.ShapeCasts S128x256) (hr : S4096x256.ShapeCasts S4096x256) (r : Fin 128) (j : Fin 4096) :
    mulf (matmul dot_S128x256_S4096x256_S128x4096_1_1_0_0_n_n none (shapeCast S128x256 (rowsAt (grid1.coords t) X) hl : FVec Ideal S128x256 .bf16)
        (shapeCast S4096x256 Y hr : FVec Ideal S4096x256 .bf16)
        (constant (F := Ideal) S128x4096 .f32 0x00000000#32))
      (broadcast S128x4096 (Scalar.ofBits (F := Ideal) .f32 0x40000000#32)) (ix2 r j)
      = sim (ofVec X) (ofVec Y) (rowOf (tileOf t) r) j := by
  rw [shapeCast_self, shapeCast_self, mulf_apply, mm_apply, broadcast_apply]
  unfold sim
  refine congrArg (· * twoC) (Finset.sum_congr rfl fun k _ => ?_)
  rw [rowsAt_apply]
  rfl

theorem pay6_eq (r : Fin 128) (j : Fin 4096) :
    k1_pay6 (F := Ideal) (rowsAt (grid1.coords t) X) Y (ix2 r j) = sim (ofVec X) (ofVec Y) (rowOf (tileOf t) r) j := by
  unfold k1_pay6 k1_pay2 k1_pay5
  exact scaled_apply t X Y _ _ r j

theorem pay7_eq (r : Fin 128) (j : Fin 4096) :
    k1_pay7 (F := Ideal) (rowsAt (grid1.coords t) Y) X (ix2 r j) = sim (ofVec Y) (ofVec X) (rowOf (tileOf t) r) j := by
  unfold k1_pay7 k1_pay3 k1_pay4
  exact scaled_apply t Y X _ _ r j

/-- The mask holds exactly on the global diagonal: at `(r, j)` of tile `t` when `128 t + r = j`. -/
private theorem pay8_iff (r : Fin 128) (j : Fin 4096) :
    k1_pay8 (grid1.coords t) (ix2 r j) = 1#1 ↔ rowOf (tileOf t) r = j := by
  unfold k1_pay8
  show IntOp.cmpi .eq (IntOp.addi (Scalar.muli (BitVec.ofNat 32 ((grid1.coords t) 0).val) 128#32)
      (iota .tc S128x4096 32 [0] iota_S128x4096_d0_w32 (ix2 r j))) (iota .tc S128x4096 32 [1] iota_S128x4096_d1_w32 (ix2 r j)) = 1#1 ↔ _
  rw [iota_single_apply, iota_single_apply, IntOp.cmpi_eq, coords_val]
  show BitVec.ofNat 32 t.val * 128#32 + BitVec.ofNat 32 r.val = BitVec.ofNat 32 j.val ↔ _
  have ht : t.val < 32 := lt_of_lt_of_eq t.isLt N_1
  have hr := r.isLt
  have hj := j.isLt
  rw [← BitVec.toNat_inj, Fin.ext_iff]
  simp only [BitVec.toNat_add, BitVec.toNat_mul, BitVec.toNat_ofNat]
  show _ ↔ 128 * t.val + r.val = j.val
  omega

private theorem select_pay8 {α : Type} (r : Fin 128) (j : Fin 4096) (a b : α) :
    Scalar.select (k1_pay8 (grid1.coords t) (ix2 r j)) a b = if rowOf (tileOf t) r = j then a else b := by
  by_cases h : rowOf (tileOf t) r = j
  · rw [if_pos h, (pay8_iff t r j).mpr h, select_one]
  · rw [if_neg h, eq_zero_of_ne_one (fun h' => h ((pay8_iff t r j).mp h')), select_zero]

/-- The name "neg_big" stands for −∞ at the ideal values. -/
private theorem neg_big_eq : Named.named (F := Ideal) Cert.KernelIdeal.κ "neg_big" (φ := .f32) 0xFF333332#32 = (⊥ : EReal) :=
  IdealRules.named_const.ideal_named_scalar _ _ _ _ rfl

theorem pay9_eq (r : Fin 128) (j : Fin 4096) :
    k1_pay9 (F := Ideal) (grid1.coords t) (rowsAt (grid1.coords t) X) X (ix2 r j) = simOff (ofVec X) (rowOf (tileOf t) r) j := by
  unfold k1_pay9 k1_pay2 k1_pay4
  dsimp only
  rw [select_apply, select_pay8, broadcast_apply, neg_big_eq, scaled_apply]
  rfl

theorem pay10_eq (r : Fin 128) (j : Fin 4096) :
    k1_pay10 (F := Ideal) (grid1.coords t) (rowsAt (grid1.coords t) Y) Y (ix2 r j) = simOff (ofVec Y) (rowOf (tileOf t) r) j := by
  unfold k1_pay10 k1_pay3 k1_pay5
  dsimp only
  rw [select_apply, select_pay8, broadcast_apply, neg_big_eq, scaled_apply]
  rfl

/-- The index of a row's entry `k`, as the reduction over the columns inserts it. -/
private theorem lift_eq (r : Fin 128) (k : Fin 4096) : reduces_S128x4096_S128.lift (ix1 r) k = ix2 r k :=
  funext fun a => Fin.ext (by match a with | ⟨0, _⟩ => rfl | ⟨1, _⟩ => rfl)

/-- A sum over the columns, read at row `r`. -/
private theorem rowSum_apply (v : FVec Ideal S128x4096 .f32) (hφ : FKind.Formats .f32)
    (hacc : (0x00000000#32 : BitVec 32) = FKind.add.neutral .f32 hφ) (r : Fin 128) :
    multiReduction (F := Ideal) .add [1] S128 v 0x00000000#32 reduces_S128x4096_S128 hφ hacc (ix1 r)
      = ∑ k : Fin 4096, v (ix2 r k) := by
  refine (Ideal.multiReduction_add_single v 0x00000000#32 reduces_S128x4096_S128 hφ hacc (ix1 r)).trans ?_
  exact Finset.sum_congr rfl fun k _ => congrArg v (lift_eq r k)

/-- The float word of −∞. -/
private theorem neg_inf_eq : (FloatOps.ofBits (F := Ideal) .f32 0xFF800000#32 : EReal) = ⊥ := by
  show Ideal.ofBits .f32 0xFF800000#32 = ⊥
  simp [Ideal.ofBits, Ideal.ieee]

/-- A maximum over the columns from −∞, read at row `r`. -/
private theorem rowMax_apply (v : FVec Ideal S128x4096 .f32) (hφ : FKind.Formats .f32)
    (hacc : (0xFF800000#32 : BitVec 32) = FKind.maximumf.neutral .f32 hφ) (r : Fin 128) :
    multiReduction (F := Ideal) .maximumf [1] S128 v 0xFF800000#32 reduces_S128x4096_S128 hφ hacc (ix1 r)
      = top (fun k : Fin 4096 => v (ix2 r k)) := by
  refine (Ideal.multiReduction_maximumf_single v 0xFF800000#32 reduces_S128x4096_S128 hφ hacc (ix1 r)).trans ?_
  unfold top
  rw [neg_inf_eq]
  exact congrArg (Finset.univ.fold max ⊥) (funext fun k => congrArg v (lift_eq r k))

theorem pay11_eq (r : Fin 128) :
    k1_pay11 (F := Ideal) (grid1.coords t) (rowsAt (grid1.coords t) X) Y (ix1 r)
      = sim (ofVec X) (ofVec Y) (rowOf (tileOf t) r) (rowOf (tileOf t) r) := by
  unfold k1_pay11
  dsimp only
  refine (rowSum_apply _ _ _ r).trans ?_
  have e : ∀ k : Fin 4096,
      select (k1_pay8 (grid1.coords t)) (k1_pay6 (F := Ideal) (rowsAt (grid1.coords t) X) Y)
        (broadcast S128x4096 (Scalar.ofBits (F := Ideal) .f32 0x00000000#32)) (ix2 r k)
      = if rowOf (tileOf t) r = k then sim (ofVec X) (ofVec Y) (rowOf (tileOf t) r) k else 0 := fun k => by
    rw [select_apply, select_pay8, broadcast_apply, pay6_eq]
    exact if_congr Iff.rfl rfl Ideal.ofBits_zero_f32
  rw [Finset.sum_congr rfl fun k _ => e k, Finset.sum_ite_eq, if_pos (Finset.mem_univ _)]

theorem pay12_eq (r : Fin 128) :
    k1_pay12 (F := Ideal) (rowsAt (grid1.coords t) X) Y (ix1 r) = top (sim (ofVec X) (ofVec Y) (rowOf (tileOf t) r)) := by
  unfold k1_pay12
  dsimp only
  refine (rowMax_apply _ _ _ r).trans ?_
  exact congrArg top (funext fun k => pay6_eq t X Y r k)

theorem pay13_eq (r : Fin 128) :
    k1_pay13 (F := Ideal) (grid1.coords t) (rowsAt (grid1.coords t) X) X (ix1 r) = top (simOff (ofVec X) (rowOf (tileOf t) r)) := by
  unfold k1_pay13
  dsimp only
  refine (rowMax_apply _ _ _ r).trans ?_
  exact congrArg top (funext fun k => pay9_eq t X r k)

end Cert.KernelIdeal.Tile

end
-- ==== Proof.TilePart.lean ====
/-
  The second half of a tile's body at the ideal values: from the four score blocks, the diagonal and the two early row
  maxima to the tile's contribution — per row the matching score less (joint maximum + log of the two shifted
  exponential sums), the 128 rows summed, the two halves added. With the blocks read (TileSims) this is `Spec.part`.
-/
import proofs.«115458_j2911987827023_1_alg».proof.Proof.TileSims

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Spec ValueIdx

/-! ## The layout and reduction steps of the tail, read at an index -/

/-- A vector of length `a` stood up as a column and copied along `b` lanes reads, at `(r, j)`, its entry `r`. -/
theorem tail_col_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (r : Fin a) (j : Fin b) :
    broadcastTo ⟨2, ![a, b]⟩ (shapeCast ⟨2, ![a, 1]⟩ v h1) h2 (ix2 r j) = v (ix1 r) := by
  refine (broadcastTo_apply _ h2 (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · refine shapeCast_apply v h1 _ _ ?_
    rw [Shape.rowMajor_val_one, Shape.rowMajor_val_two]
    show r.val = r.val * 1 + 0
    omega

/-- The sum along the lanes of a matrix, read at row `r`. -/
theorem tail_rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ j : Fin b, src (ix2 r j) := by
  rw [Ideal.multiReduction_add_single]
  refine Finset.sum_congr rfl fun k _ => congrArg src ?_
  funext c
  match c with
  | ⟨0, _⟩ => rfl
  | ⟨1, _⟩ => rfl

/-- The maximum along the lanes of a matrix from an accumulator that denotes −∞, read at row `r`. -/
theorem tail_rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hbot : Ideal.ofBits φ acc = ⊥) (r : Fin a) :
    multiReduction .maximumf [1] ⟨1, ![a]⟩ src acc h hφ hacc (ix1 r) = top fun j : Fin b => src (ix2 r j) := by
  rw [Ideal.multiReduction_maximumf_single]
  show (Finset.univ : Finset (Fin b)).fold max (Ideal.ofBits φ acc) (src ∘ h.lift (ix1 r)) = _
  rw [hbot]
  unfold top
  refine congrArg (Finset.univ.fold max ⊥) (funext fun k => congrArg src ?_)
  funext c
  match c with
  | ⟨0, _⟩ => rfl
  | ⟨1, _⟩ => rfl

/-- The f32 word of −∞ denotes ⊥. -/
theorem tail_negInf_f32 : Ideal.ofBits .f32 0xFF800000#32 = ⊥ := by simp [Ideal.ofBits, Ideal.ieee]

/-- A length-one vector has one index. -/
theorem tail_idx1_one (j : (⟨1, ![1]⟩ : Shape).Idx) : j = ix1 (0 : Fin 1) :=
  funext fun c => match c with
    | ⟨0, _⟩ => Fin.ext (Nat.lt_one_iff.mp (j ⟨0, Nat.one_pos⟩).isLt)

/-- A length-`a` vector laid as one row, summed along it, and the one sum taken out: the sum of its entries. -/
theorem tail_total_apply {a : ℕ} {φ : FTy} (w : FVec Ideal ⟨1, ![a]⟩ φ) (acc : BitVec φ.bits)
    (h1 : (⟨1, ![a]⟩ : Shape).ShapeCasts ⟨2, ![1, a]⟩) (h : (⟨2, ![1, a]⟩ : Shape).Reduces [1] ⟨1, ![1]⟩)
    (hφ : FKind.Formats φ) (hacc : acc = FKind.add.neutral φ hφ)
    (h2 : (⟨1, ![1]⟩ : Shape).ShapeCasts ⟨2, ![1, 1]⟩) (h3 : ∀ c, (![0, 0] : Fin 2 → ℕ) c < (⟨2, ![1, 1]⟩ : Shape).size c) :
    extractAt ![0, 0] (shapeCast ⟨2, ![1, 1]⟩ (multiReduction .add [1] ⟨1, ![1]⟩ (shapeCast ⟨2, ![1, a]⟩ w h1) acc h hφ hacc) h2) h3
      = ∑ r : Fin a, w (ix1 r) := by
  refine (congrArg (multiReduction .add [1] ⟨1, ![1]⟩ (shapeCast ⟨2, ![1, a]⟩ w h1) acc h hφ hacc) (tail_idx1_one _)).trans ?_
  rw [tail_rowSum_apply]
  exact Finset.sum_congr rfl fun k _ => shapeCast_a_1a_apply w h1 0 k

/-- One row's shifted log-sum-exp over two blocks: the shift `m` stood up as a column and copied along the lanes,
    subtracted, exponentials summed along the lanes, the two sums added, the logarithm, the shift added back. -/
theorem tail_lseRow_apply {a b : ℕ} {φ : FTy} (A B : FVec Ideal ⟨2, ![a, b]⟩ φ) (m : FVec Ideal ⟨1, ![a]⟩ φ) (acc : BitVec φ.bits)
    (h1 : (⟨1, ![a]⟩ : Shape).ShapeCasts ⟨2, ![a, 1]⟩) (h2 : (⟨2, ![a, 1]⟩ : Shape).Broadcasts ⟨2, ![a, b]⟩)
    (h : (⟨2, ![a, b]⟩ : Shape).Reduces [1] ⟨1, ![a]⟩) (hφ : FKind.Formats φ) (hacc : acc = FKind.add.neutral φ hφ)
    (r : Fin a) :
    addf m (log (addf
        (multiReduction .add [1] ⟨1, ![a]⟩ (exp (subf A (broadcastTo ⟨2, ![a, b]⟩ (shapeCast ⟨2, ![a, 1]⟩ m h1) h2))) acc h hφ hacc)
        (multiReduction .add [1] ⟨1, ![a]⟩ (exp (subf B (broadcastTo ⟨2, ![a, b]⟩ (shapeCast ⟨2, ![a, 1]⟩ m h1) h2))) acc h hφ hacc)))
      (ix1 r)
      = m (ix1 r) + Ideal.log ((∑ j : Fin b, Ideal.exp (A (ix2 r j) - m (ix1 r))) + ∑ j : Fin b, Ideal.exp (B (ix2 r j) - m (ix1 r))) := by
  show m (ix1 r) + Ideal.log (multiReduction (F := Ideal) .add [1] ⟨1, ![a]⟩ _ acc h hφ hacc (ix1 r)
      + multiReduction (F := Ideal) .add [1] ⟨1, ![a]⟩ _ acc h hφ hacc (ix1 r)) = _
  rw [tail_rowSum_apply, tail_rowSum_apply]
  have hA : ∀ j : Fin b, exp (subf A (broadcastTo ⟨2, ![a, b]⟩ (shapeCast ⟨2, ![a, 1]⟩ m h1) h2)) (ix2 r j)
      = Ideal.exp (A (ix2 r j) - m (ix1 r)) := fun j =>
    congrArg (fun z => Ideal.exp (A (ix2 r j) - z)) (tail_col_apply m h1 h2 r j)
  have hB : ∀ j : Fin b, exp (subf B (broadcastTo ⟨2, ![a, b]⟩ (shapeCast ⟨2, ![a, 1]⟩ m h1) h2)) (ix2 r j)
      = Ideal.exp (B (ix2 r j) - m (ix1 r)) := fun j =>
    congrArg (fun z => Ideal.exp (B (ix2 r j) - z)) (tail_col_apply m h1 h2 r j)
  rw [Finset.sum_congr rfl fun j _ => hA j, Finset.sum_congr rfl fun j _ => hB j]

/-- The body's tail over ANY blocks: `v14` and `v30` are the first half's two score blocks with early row maxima
    `v36`, `v37`; `v32` and `v23` the second half's; `v35` the matching scores. -/
theorem pay16_eq (v14 v23 v30 v32 : FVec Ideal S128x4096 .f32) (v35 v36 v37 : FVec Ideal S128 .f32) :
    k1_pay16 (F := Ideal) v14 v23 v30 v32 v35 v36 v37 = fun _ =>
      (∑ r : Fin 128, (v35 (ix1 r) - (max (v36 (ix1 r)) (v37 (ix1 r))
          + Ideal.log ((∑ j : Fin 4096, Ideal.exp (v14 (ix2 r j) - max (v36 (ix1 r)) (v37 (ix1 r))))
              + ∑ j : Fin 4096, Ideal.exp (v30 (ix2 r j) - max (v36 (ix1 r)) (v37 (ix1 r)))))))
      + ∑ r : Fin 128, (v35 (ix1 r) - (max (top fun j => v32 (ix2 r j)) (top fun j => v23 (ix2 r j))
          + Ideal.log ((∑ j : Fin 4096, Ideal.exp (v32 (ix2 r j) - max (top fun j => v32 (ix2 r j)) (top fun j => v23 (ix2 r j))))
              + ∑ j : Fin 4096, Ideal.exp (v23 (ix2 r j) - max (top fun j => v32 (ix2 r j)) (top fun j => v23 (ix2 r j)))))) := by
  funext i
  unfold k1_pay16
  dsimp only
  refine (congrArg₂ (fun x y : EReal => x + y) (tail_total_apply _ _ _ _ _ _ _ _) (tail_total_apply _ _ _ _ _ _ _ _)).trans ?_
  refine congrArg₂ (fun x y : EReal => x + y) (Finset.sum_congr rfl fun r _ => ?_) (Finset.sum_congr rfl fun r _ => ?_)
  · exact congrArg (fun z : EReal => v35 (ix1 r) - z) (tail_lseRow_apply v14 v30 (maximumf v36 v37) _ _ _ _ _ _ r)
  · have hm : maximumf
          (multiReduction .maximumf [1] S128 v32 0xFF800000#32 reduces_S128x4096_S128 (.inl rfl) rfl)
          (multiReduction .maximumf [1] S128 v23 0xFF800000#32 reduces_S128x4096_S128 (.inl rfl) rfl) (ix1 r)
        = max (top fun j => v32 (ix2 r j)) (top fun j => v23 (ix2 r j)) :=
      congrArg₂ max (tail_rowMax_apply v32 _ _ _ _ tail_negInf_f32 r) (tail_rowMax_apply v23 _ _ _ _ tail_negInf_f32 r)
    refine (congrArg (fun z : EReal => v35 (ix1 r) - z) (tail_lseRow_apply v32 v23 _ _ _ _ _ _ _ r)).trans ?_
    exact congrArg (fun M : EReal => v35 (ix1 r) - (M + Ideal.log ((∑ j : Fin 4096, Ideal.exp (v32 (ix2 r j) - M))
      + ∑ j : Fin 4096, Ideal.exp (v23 (ix2 r j) - M)))) hm

/-- A tile's contribution, computed by the body from the two whole arrays, is the specification's. -/
theorem part_eq (t : Fin cfg1.N) (X Y : Vec Ideal S4096x256 .bf16) :
    partV (F := Ideal) (grid1.coords t) X Y = fun _ => Cert.Spec.part (ofVec X) (ofVec Y) (tileOf t) := by
  unfold partV
  rw [pay16_eq]
  funext _
  unfold Cert.Spec.part
  refine congrArg₂ (fun x y : EReal => x + y) (Finset.sum_congr rfl fun r _ => ?_) (Finset.sum_congr rfl fun r _ => ?_)
  · -- the first half: scores against the other array, then against the tile's own array off the diagonal
    simp only [pay6_eq, pay9_eq, pay11_eq, pay12_eq, pay13_eq]
    rfl
  · -- the second half: the other array's own scores off the diagonal first, then its scores against this one
    simp only [pay10_eq, pay7_eq, pay11_eq]
    rfl

end Cert.KernelIdeal.Tile

end
-- ==== Proof.Reg1Value.lean ====
/-
  The second kernel's result, at the ideal values, for ANY contents the region is entered with: its one-element output
  block is reset at the first tile and accumulates one tile's contribution per grid point, so after the last of the 32
  points it holds the sum of all tiles' contributions.
-/
import proofs.«115458_j2911987827023_1_alg».proof.Proof.Gen.KernelIdeal.Frame
import proofs.«115458_j2911987827023_1_alg».proof.Proof.TilePart
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Reg

open Cert.KernelIdeal Cert.KernelIdeal.Gen

/-! ## What one grid point leaves in the output block, for any float values -/

namespace One

section AnyValues

variable {F : FTy → Type} [FloatOps F] [Named F]

/-- The zero offsets, as a constant function. -/
theorem hz : (![0, 0] : Fin 2 → Nat) = fun _ => 0 := funext fun a => by fin_cases a <;> rfl

/-- A POINT AFTER THE FIRST: the output block holding `xo`, the body's one covering store leaves `xo` (read back whole)
    plus the tile's contribution, computed from the two whole arrays and the tile's 128-row windows of them. -/
theorem out_B (c : Dev nD) (i : grid1.Coords) (a1 : Memref sig .tc .vmem S4096x256 .bf16) (h1 : a1.IsWhole)
    (a2 : Memref sig .tc .vmem S4096x256 .bf16) (h2 : a2.IsWhole) (a3 : Memref sig .tc .vmem S1x1 .f32) (h3 : a3.IsWhole)
    (hc : ¬cond1_0 i) (x0 x1 : Vec F S4096x256 .bf16) (xo : Vec F S1x1 .f32) :
    out1_B_2 c i a1 h1 a2 h2 a3 h3 hc x0 x1 xo = k1_pay1 (k1_pay15 xo) (Tile.partV i x0 x1) := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  unfold Tile.partV Tile.rowsAt
  simp only [View.readAt_eq_ld, h1.read_unread, h2.read_unread, h3.read_unread, View.ld_unit_zero (S := S4096x256) hz,
    View.ld_unit_zero (S := S1x1) hz]
  rfl

/-- THE FIRST POINT: the body stores the zero block, reads it back, and its last store (which covers the block whatever
    came before) leaves that zero plus the tile's contribution. -/
theorem out_A (c : Dev nD) (i : grid1.Coords) (a1 : Memref sig .tc .vmem S4096x256 .bf16) (h1 : a1.IsWhole)
    (a2 : Memref sig .tc .vmem S4096x256 .bf16) (h2 : a2.IsWhole) (a3 : Memref sig .tc .vmem S1x1 .f32) (h3 : a3.IsWhole)
    (hc : cond1_0 i) (x0 x1 : Vec F S4096x256 .bf16) :
    out1_A_2 c i a1 h1 a2 h2 a3 h3 hc x0 x1 = k1_pay1 (k1_pay15 (k1_pay14 (F := F))) (Tile.partV i x0 x1) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) hz, View.readCov_unit_zero (S := S1x1) _ hz]
  unfold Tile.partV Tile.rowsAt
  simp only [View.readAt_eq_ld, h1.read_unread, h2.read_unread, View.ld_unit_zero (S := S4096x256) hz]
  rfl

end AnyValues

end One

variable (V : (c : Dev nD) → (b : Ref sig .tc) → Buf (Elt Ideal) ((c : Thread nD τ).loc b))

namespace One

/-! ## At the ideal values: the running sum of the tiles' contributions -/

/-- The two whole arrays the region is entered with, at their literal type. -/
abbrev xarr (c : Dev nD) : Vec Ideal S4096x256 .bf16 := V c main_v0_0
abbrev yarr (c : Dev nD) : Vec Ideal S4096x256 .bf16 := V c main_v0_1

/-- The first input's block index is (0, 0) at every point and the block is the array's size: read through zero
    offsets, the block IS the whole array. -/
theorem iblk_0 (c : Dev nD) (t : Fin cfg1.N) : (iblk1 V c 0 t : Vec Ideal S4096x256 .bf16) = xarr V c := by
  unfold iblk1
  have hz' : (fun a => win1_0.index t a * main_v0_0.ty.shape.size a) = fun _ => 0 := funext fun a => by fin_cases a <;> rfl
  exact Memref.read_access_unit_zero (Elt Ideal) main_v0_0 hz' (fun a => by rw [congrFun hz' a]; simp) (V c main_v0_0)

/-- The same for the second input. -/
theorem iblk_1 (c : Dev nD) (t : Fin cfg1.N) : (iblk1 V c 1 t : Vec Ideal S4096x256 .bf16) = yarr V c := by
  unfold iblk1
  have hz' : (fun a => win1_1.index t a * main_v0_1.ty.shape.size a) = fun _ => 0 := funext fun a => by fin_cases a <;> rfl
  exact Memref.read_access_unit_zero (Elt Ideal) main_v0_1 hz' (fun a => by rw [congrFun hz' a]; simp) (V c main_v0_1)

/-- Over the extended reals the reset-then-add of the first point is `0 + p = p` (the float word `+0.0` is the real 0), -/
theorem pay1_reset (p : EReal) :
    k1_pay1 (F := Ideal) (k1_pay15 (k1_pay14 (F := Ideal))) (fun _ => p) = fun _ => p := by
  funext j
  unfold k1_pay1 k1_pay15 k1_pay14
  rw [shapeCast_self]
  show Ideal.ofBits .f32 0x00000000#32 + p = p
  rw [Ideal.ofBits_zero_f32, zero_add]

/-- and the add of a later point is `s + p`. -/
theorem pay1_acc (s p : EReal) :
    k1_pay1 (F := Ideal) (k1_pay15 (fun _ => s)) (fun _ => p) = fun _ => s + p := by
  funext j
  unfold k1_pay1 k1_pay15
  rw [shapeCast_self]
  rfl

/-- After the first point the block holds that tile's contribution. -/
theorem outsAt_first (c : Dev nD) (t : Fin cfg1.N) (h0 : t.val % 32 = 0) :
    outsAt1 V c t.val t.isLt
      = fun _ => Cert.Spec.part (Cert.Spec.ofVec (xarr V c)) (Cert.Spec.ofVec (yarr V c)) (Tile.tileOf t) := by
  rw [outsAt1_A V c t h0,
    out_A (F := Ideal) c (grid1.coords t) (ms1_0 t) (hs1_0 t) (ms1_1 t) (hs1_1 t) (ms1_2 t) (hs1_2 t) ((hcond1_0 t).mpr h0)
      (iblk1 V c 0 t) (iblk1 V c 1 t),
    iblk_0, iblk_1, Tile.part_eq t (xarr V c) (yarr V c), pay1_reset]

/-- A later point adds its tile's contribution to what the point before left. -/
theorem outsAt_step (c : Dev nD) (t : Fin cfg1.N) (h0 : ¬t.val % 32 = 0) (s : EReal)
    (hprev : outsAt1 V c (t.val - 1) (Nat.lt_of_le_of_lt (Nat.sub_le _ _) t.isLt) = fun _ => s) :
    outsAt1 V c t.val t.isLt
      = fun _ => s + Cert.Spec.part (Cert.Spec.ofVec (xarr V c)) (Cert.Spec.ofVec (yarr V c)) (Tile.tileOf t) := by
  rw [outsAt1_B V c t h0,
    out_B (F := Ideal) c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)),
    iblk_0, iblk_1, Tile.part_eq t (xarr V c) (yarr V c), hprev, pay1_acc]

/-- The sum of the contributions of tiles `0 … n`. -/
def runSum (X Y : Cert.Spec.Arr) (n : ℕ) (hn : n < 32) : EReal :=
  ∑ t : Fin (n + 1), Cert.Spec.part X Y ⟨t.val, by have := t.isLt; omega⟩

theorem runSum_zero (X Y : Cert.Spec.Arr) (h : 0 < 32) : runSum X Y 0 h = Cert.Spec.part X Y ⟨0, h⟩ := by
  unfold runSum
  rw [Fin.sum_univ_one]
  rfl

theorem runSum_succ (X Y : Cert.Spec.Arr) (n : ℕ) (h : n + 1 < 32) :
    runSum X Y (n + 1) h = runSum X Y n (Nat.lt_of_succ_lt h) + Cert.Spec.part X Y ⟨n + 1, h⟩ := by
  unfold runSum
  rw [Fin.sum_univ_castSucc]
  rfl

/-- THE INVARIANT: after point `n` the output block holds the sum of the contributions of tiles `0 … n` — by
    induction on the point. -/
theorem outsAt_eq (c : Dev nD) : ∀ (n : ℕ) (h : n < cfg1.N),
    outsAt1 V c n h = fun _ => runSum (Cert.Spec.ofVec (xarr V c)) (Cert.Spec.ofVec (yarr V c)) n (lt_of_lt_of_eq h N_1)
  | 0, h => by
    rw [runSum_zero]
    exact outsAt_first V c ⟨0, h⟩ rfl
  | n + 1, h => by
    have hN : cfg1.N = 32 := N_1
    have hB : ¬(⟨n + 1, h⟩ : Fin cfg1.N).val % 32 = 0 := by dsimp only; omega
    rw [runSum_succ]
    exact outsAt_step V c ⟨n + 1, h⟩ hB _ (outsAt_eq c n (Nat.lt_of_succ_lt h))

/-! ## The result array -/

/-- The sum over all 32 tiles, as contents of the one-element result array. -/
abbrev result (c : Dev nD) : Buf (Elt Ideal) ((c : Thread nD τ).loc main_v1) :=
  fun _ => (∑ t : Fin 32, Cert.Spec.part (Cert.Spec.ofVec (xarr V c)) (Cert.Spec.ofVec (yarr V c)) t : EReal)

/-- The last grid point, the only one after which the output block is written back. -/
abbrev tLast : Fin cfg1.N := ⟨31, lt_of_lt_of_eq (by decide : 31 < 32) N_1.symm⟩

/-- The one write-back writes the full sum: block (0, 0) of the 1 × 1 array read through zero offsets is the array. -/
theorem flushed_eq (c : Dev nD) (t : Fin cfg1.N) (hf : (cfg1.win 2).flush t = true) :
    (dat1 V c).flushed 2 t = ((cfg1.win 2).blk t).view.read (Elt Ideal) (result V c) := by
  have hN : cfg1.N = 32 := N_1
  have h31 : t.val = 31 := by have := (flush1_2 t).mp hf; have := t.isLt; omega
  obtain rfl : t = tLast := Fin.ext h31
  show (cfg1.win 2).cut (grid1.coords tLast) ((dat1 V c).after 2 tLast) = _
  rw [after1_2, outsAt_eq]
  have hz' : (fun a => win1_2.index tLast a * main_v1.ty.shape.size a) = fun _ => 0 := funext fun a => by fin_cases a <;> rfl
  exact (Memref.read_access_unit_zero (Elt Ideal) main_v1 hz' (fun a => by rw [congrFun hz' a]; simp) (result V c)).symm

end One

open One in
theorem arr1_2 (c : Dev nD) :
    (dat1 (F := Ideal) V c).arrAt 2 cfg1.N
      = fun _ => ∑ t : Fin 32, Cert.Spec.part (Cert.Spec.ofVec (V c main_v0_0)) (Cert.Spec.ofVec (V c main_v0_1)) t :=
  (dat1 V c).arrAt_eq_of_cover 2 (result V c) (flushed_eq V c) fun i =>
    ⟨tLast, (flush1_2 tLast).mpr rfl, by
      -- the last point's block is the whole 1 × 1 array: both coordinates of any index lie in [0, 1)
      show i ∈ ((View.whole main_v1).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from rfl, show win1_2.xsize (grid1.coords tLast) 0 = 1 from rfl]
        omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from rfl, show win1_2.xsize (grid1.coords tLast) 1 = 1 from rfl]
        omega⟩

end Cert.KernelIdeal.Reg

end
-- ==== Proof.KernelValue.lean ====
/-
  What the kernel's program returns, at the ideal values: the second kernel's accumulated sum of tile contributions,
  taken over the first kernel's two normalized arrays, then negated and divided by the row count on the host — the
  loss in tile order, `Spec.lossK`, of the two argument arrays with their rows scaled to unit length.
-/
import proofs.«115458_j2911987827023_1_alg».proof.Proof.KernelRun
import proofs.«115458_j2911987827023_1_alg».proof.Proof.Reg0Value
import proofs.«115458_j2911987827023_1_alg».proof.Proof.Reg1Value
import Idealize.ShloMosaic.Lib.StableHlo.Run

noncomputable section

open Idealize.ShloMosaic Idealize.ShloMosaic.TcCoe Idealize.SL.Sem
open Idealize.ShloMosaic.Pipeline (Dat)

namespace Cert.KernelIdeal.ValueK

open Cert.KernelIdeal Cert.KernelIdeal.Gen

variable (m : (ℓ : Loc nD τ sig) → Buf (Elt Ideal) ℓ) (ρ : Dev nD → PrngReg)

/-- The loss the program returns, of the launch contents of the two arguments. -/
def loss (c : Dev nD) : EReal :=
  Cert.Spec.lossK (Cert.Spec.unitRows (Cert.Spec.ofVec (m ((c.tc : Thread nD τ).loc main_arg0))))
    (Cert.Spec.unitRows (Cert.Spec.ofVec (m ((c.tc : Thread nD τ).loc main_arg1))))

/-- The first kernel's first result array as the second kernel finds it: the first argument with every row scaled to
    unit length (the region's value at the launch contents; no earlier operation writes the argument). -/
theorem V1_v0_0 (c : Dev nD) : V1 (F := Ideal) m ρ c main_v0_0
    = Cert.Spec.toVec (Cert.Spec.unitRows (Cert.Spec.ofVec (m ((c.tc : Thread nD τ).loc main_arg0)))) :=
  (W1_arr (F := Ideal) m ρ c 2).trans (Reg.arr0_2 (V0 m ρ) c)

/-- The first kernel's second result array as the second kernel finds it: the second argument with unit rows. -/
theorem V1_v0_1 (c : Dev nD) : V1 (F := Ideal) m ρ c main_v0_1
    = Cert.Spec.toVec (Cert.Spec.unitRows (Cert.Spec.ofVec (m ((c.tc : Thread nD τ).loc main_arg1)))) :=
  (W1_arr (F := Ideal) m ρ c 3).trans (Reg.arr0_3 (V0 m ρ) c)

/-- The second kernel's one-element result as the host tail finds it: the 32 tile contributions, taken over the two
    unit-row arrays, summed. -/
theorem W2_v1 (c : Dev nD) : W2 (F := Ideal) m ρ c (Proc.devRef .tc main_v1)
    = fun _ => ∑ t : Fin 32, Cert.Spec.part
        (Cert.Spec.unitRows (Cert.Spec.ofVec (m ((c.tc : Thread nD τ).loc main_arg0))))
        (Cert.Spec.unitRows (Cert.Spec.ofVec (m ((c.tc : Thread nD τ).loc main_arg1)))) t := by
  refine ((W2_arr (F := Ideal) m ρ c 2).trans (Reg.arr1_2 (V1 m ρ) c)).trans ?_
  rw [V1_v0_1 m ρ c, V1_v0_0 m ρ c, Cert.Spec.ofVec_toVec, Cert.Spec.ofVec_toVec]

/-- The result buffer at the last boundary: the host tail (reshape, negate, divide by 8192) of the accumulated sum. -/
theorem W3_v4 (c : Dev nD) : W3 (F := Ideal) m ρ c (Proc.devRef .tc main_v4) = fun _ => loss m c := by
  show StableHlo.after hostOps2 _ (Proc.devRef .tc main_v4) = _
  after_results
  rw [W2_v1 m ρ c]
  -- the one-element array recast to rank 0 is constant at the sum; negation and division act on that one element,
  -- and the divisor's word is the row count's
  funext i
  rfl

/-- The run, read: the result at the loss in tile order, the arguments unchanged. -/
theorem run : θ_run defs (onTc (τ := τ) (main (F := Ideal))) ⟨m, fun _ => 0, ρ⟩ (fun r => ∀ c : Dev nD,
      r.2.mem ((c.tc : Thread nD τ).loc main_v4) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W3_v4 m ρ c), (h c).2⟩) (run_v4 (F := Ideal) m ρ)

end Cert.KernelIdeal.ValueK

end
-- ==== Proof.RefSims.lean ====
/-
  The reference's first stages at the ideal values, read at an index: the two arguments with rows scaled to unit
  length (norm clamped below), and the three 4096 × 4096 products of rows, each scaled by two.
-/
import proofs.«115458_j2911987827023_1_alg».proof.Proof.RefRead
import proofs.«115458_j2911987827023_1_alg».proof.Proof.Spec

noncomputable section

open Idealize.ShloMosaic Idealize.ShloMosaic.TcCoe Idealize.SL.Sem Idealize.ShloMosaic.StableHlo

namespace Cert.ReferenceIdeal.RefSpec

open Cert.ReferenceIdeal Cert.ReferenceIdeal.Gen Cert.ReferenceIdeal.ReadP Cert.Spec ValueIdx

variable (x0 x1 : (⟨S4096x256, .f32⟩ : BufTy).Contents (Elt Ideal))

/-! The composed index functions of the first stages, at an index given by its coordinates. -/

theorem idx_norm0 (i : Fin 4096) (k l : Fin 256) :
    idx_main_call0_v1 (idx_main_call0_v2 (idx_main_v3 (ix2 i k))) l = ix2 i l :=
  funext fun a => Fin.ext (by match a with | ⟨0, _⟩ => rfl | ⟨1, _⟩ => rfl)

theorem idx_norm1 (i : Fin 4096) (k l : Fin 256) :
    idx_main_call1_v1 (idx_main_call1_v2 (idx_main_v8 (ix2 i k))) l = ix2 i l :=
  funext fun a => Fin.ext (by match a with | ⟨0, _⟩ => rfl | ⟨1, _⟩ => rfl)

theorem lidx11 (i j : Fin 4096) (k : Fin 256) : lidx_main_v11 (ix2 i j) k = ix2 i k :=
  funext fun a => Fin.ext (by match a with | ⟨0, _⟩ => rfl | ⟨1, _⟩ => rfl)

theorem ridx11 (i j : Fin 4096) (k : Fin 256) : idx_main_v10 (ridx_main_v11 (ix2 i j) k) = ix2 j k :=
  funext fun a => Fin.ext (by match a with | ⟨0, _⟩ => rfl | ⟨1, _⟩ => rfl)

theorem lidx15 (i j : Fin 4096) (k : Fin 256) : lidx_main_v15 (ix2 i j) k = ix2 i k :=
  funext fun a => Fin.ext (by match a with | ⟨0, _⟩ => rfl | ⟨1, _⟩ => rfl)

theorem ridx15 (i j : Fin 4096) (k : Fin 256) : idx_main_v14 (ridx_main_v15 (ix2 i j) k) = ix2 j k :=
  funext fun a => Fin.ext (by match a with | ⟨0, _⟩ => rfl | ⟨1, _⟩ => rfl)

theorem lidx19 (i j : Fin 4096) (k : Fin 256) : lidx_main_v19 (ix2 i j) k = ix2 i k :=
  funext fun a => Fin.ext (by match a with | ⟨0, _⟩ => rfl | ⟨1, _⟩ => rfl)

theorem ridx19 (i j : Fin 4096) (k : Fin 256) : idx_main_v18 (ridx_main_v19 (ix2 i j) k) = ix2 j k :=
  funext fun a => Fin.ext (by match a with | ⟨0, _⟩ => rfl | ⟨1, _⟩ => rfl)

/-- The first argument with unit rows. -/
theorem v4_eq (i : Fin 4096) (k : Fin 256) : val_main_v4 (F := Ideal) x0 (ix2 i k) = unitRows (ofVec x0) i k := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, idx_norm0, Ideal.hostDivf_def, Ideal.maximumf_def, Ideal.hostUnary_sqrt_def,
    Ideal.ofBits_def, Ideal.ofBits_zero_f32, zero_add, Ideal.mulf_def]
  rfl

/-- The second argument with unit rows. -/
theorem v9_eq (i : Fin 4096) (k : Fin 256) : val_main_v9 (F := Ideal) x1 (ix2 i k) = unitRows (ofVec x1) i k := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, idx_norm1, Ideal.hostDivf_def, Ideal.maximumf_def, Ideal.hostUnary_sqrt_def,
    Ideal.ofBits_def, Ideal.ofBits_zero_f32, zero_add, Ideal.mulf_def]
  rfl

/-- a·a scaled. -/
theorem v13_eq (i j : Fin 4096) :
    val_main_v13 (F := Ideal) x0 (ix2 i j) = sim (unitRows (ofVec x0)) (unitRows (ofVec x0)) i j := by
  rw [val_main_v13_apply, val_main_v11_apply, val_main_v12_apply, val_main_cst_1_apply]
  simp only [val_main_v10_apply, lidx11, ridx11, v4_eq, Ideal.mulf_def, Ideal.ofBits_def]
  rfl

/-- b·b scaled. -/
theorem v17_eq (i j : Fin 4096) :
    val_main_v17 (F := Ideal) x1 (ix2 i j) = sim (unitRows (ofVec x1)) (unitRows (ofVec x1)) i j := by
  rw [val_main_v17_apply, val_main_v15_apply, val_main_v16_apply, val_main_cst_2_apply]
  simp only [val_main_v14_apply, lidx15, ridx15, v9_eq, Ideal.mulf_def, Ideal.ofBits_def]
  rfl

/-- a·b scaled. -/
theorem v21_eq (i j : Fin 4096) :
    val_main_v21 (F := Ideal) x0 x1 (ix2 i j) = sim (unitRows (ofVec x0)) (unitRows (ofVec x1)) i j := by
  rw [val_main_v21_apply, val_main_v19_apply, val_main_v20_apply, val_main_cst_3_apply]
  simp only [val_main_v18_apply, lidx19, ridx19, v4_eq, v9_eq, Ideal.mulf_def, Ideal.ofBits_def]
  rfl

end Cert.ReferenceIdeal.RefSpec

end
-- ==== Proof.RefScore.lean ====
/-
  The reference's 8192 × 8192 score matrix at the ideal values, read at an index: the two diagonal scatters put −∞ on
  the diagonals of a·a and b·b, and the three concatenations lay out [a·b | a·a] over [b·b | (a·b) transposed].
-/
import proofs.«115458_j2911987827023_1_alg».proof.Proof.RefSims
import Idealize.ShloMosaic.Lib.StableHlo.Predicate

noncomputable section

open Idealize.ShloMosaic Idealize.ShloMosaic.TcCoe Idealize.SL.Sem Idealize.ShloMosaic.StableHlo

namespace Cert.ReferenceIdeal.RefSpec

open Cert.ReferenceIdeal Cert.ReferenceIdeal.Gen Cert.ReferenceIdeal.ReadP Cert.Spec ValueIdx

namespace ScoreAux

/-! A scatter that writes one constant -/

/-- A fold of "set" steps whose written value is always `c`: an element is `c` when some step lands on it, untouched otherwise. -/
theorem scatter_fold_const {α : Type} {s si u : Shape} {w : Nat} (d : ScatterDims s si u) (idx : IVec si w)
    (upd : u.Idx → α) (c : α) (hc : ∀ j, upd j = c) (i : s.Idx) (l : List (Fin u.numel)) :
    ∀ x : s.Idx → α,
    (l.foldl (fun r n =>
      match d.resultIdx? (u.rowMajor.symm n) idx with
      | some k => fun i' => if i' = k then (fun (_ b : α) => b) (r k) (upd (u.rowMajor.symm n)) else r i'
      | none => r) x) i = if ∃ n ∈ l, d.resultIdx? (u.rowMajor.symm n) idx = some i then c else x i := by
  induction l with
  | nil => intro x; simp
  | cons n l ih =>
    intro x
    rw [List.foldl_cons, ih]
    cases hn : d.resultIdx? (u.rowMajor.symm n) idx with
    | none =>
      simp only [List.mem_cons, exists_eq_or_imp, hn]
      simp
    | some k =>
      simp only [List.mem_cons, exists_eq_or_imp, hn, Option.some.injEq]
      by_cases hl : ∃ m ∈ l, d.resultIdx? (u.rowMajor.symm m) idx = some i
      · rw [if_pos hl, if_pos (Or.inr hl)]
      · rw [if_neg hl]
        by_cases hik : i = k
        · rw [if_pos hik, if_pos (Or.inl hik.symm)]; exact hc _
        · rw [if_neg hik, if_neg (by rintro (h | h); exact hik h.symm; exact hl h)]

/-- A "set" scatter whose updates all hold `c`: an element is `c` when some update lands on it, the operand's otherwise. -/
theorem scatter_set_const {α : Type} {s si u : Shape} {w : Nat} (d : ScatterDims s si u) (x : s.Idx → α) (idx : IVec si w)
    (upd : u.Idx → α) (c : α) (hc : ∀ j, upd j = c) (i : s.Idx) :
    Host.scatter d (fun _ b => b) x idx upd i = if ∃ j, d.resultIdx? j idx = some i then c else x i := by
  unfold Host.scatter
  refine (scatter_fold_const d idx upd c hc i _ x).trans ?_
  refine if_congr ⟨?_, ?_⟩ rfl rfl
  · rintro ⟨n, _, h⟩; exact ⟨_, h⟩
  · rintro ⟨j, h⟩; exact ⟨u.rowMajor j, List.mem_finRange _, by rw [Equiv.symm_apply_apply]; exact h⟩

/-! The diagonal scatter's dimension numbers -/

abbrev dg : ScatterDims S4096x4096 S4096x2 S4096 := scatter_S4096x4096_S4096x2_S4096_n_01_01_1

theorem dg_start {w : Nat} (idx : IVec S4096x2 w) (j : S4096.Idx) (a : Fin 2) :
    dg.start j idx a = (idx (ix2 (⟨(j 0).val, (j 0).isLt⟩ : Fin 4096) (⟨a.val, a.isLt⟩ : Fin 2))).toInt := by
  have hm : a ∈ dg.scatterDimsToOperandDims := (by decide : ∀ a : Fin 2, a ∈ dg.scatterDimsToOperandDims) a
  unfold ScatterDims.start
  rw [dif_pos hm]
  congr 2
  funext b
  apply Fin.ext
  match a, b with
  | ⟨0, _⟩, ⟨0, _⟩ => rfl
  | ⟨0, _⟩, ⟨1, _⟩ => rfl
  | ⟨1, _⟩, ⟨0, _⟩ => rfl
  | ⟨1, _⟩, ⟨1, _⟩ => rfl

theorem dg_window (j : S4096.Idx) (a : Fin 2) : dg.window j a = 0 := by
  have hm : a ∉ dg.sKept := (by decide : ∀ a : Fin 2, a ∉ dg.sKept) a
  unfold ScatterDims.window
  rw [dif_neg hm]

theorem dg_resultIdx (idx : IVec S4096x2 32) (hidx : ∀ (n : Fin 4096) (c : Fin 2), idx (ix2 n c) = BitVec.ofNat 32 n.val)
    (j : S4096.Idx) :
    dg.resultIdx? j idx = some (ix2 (⟨(j 0).val, (j 0).isLt⟩ : Fin 4096) (⟨(j 0).val, (j 0).isLt⟩ : Fin 4096)) := by
  have hj : (j 0).val < 4096 := (j 0).isLt
  have hs : ∀ a, dg.start j idx a + (dg.window j a : Int) = ((j 0).val : Int) := by
    intro a
    rw [dg_start, dg_window, hidx, Predicate.toInt_ofNat_small _ (by omega)]
    simp
  unfold ScatterDims.resultIdx?
  rw [dif_pos (by
    intro a
    rw [hs a]
    refine ⟨by omega, ?_⟩
    match a with
    | ⟨0, _⟩ => show ((j 0).val : Int) < ((4096 : Nat) : Int); omega
    | ⟨1, _⟩ => show ((j 0).val : Int) < ((4096 : Nat) : Int); omega)]
  congr 1
  funext a
  apply Fin.ext
  show (dg.start j idx a + (dg.window j a : Int)).toNat = _
  rw [hs a]
  match a with
  | ⟨0, _⟩ => simp
  | ⟨1, _⟩ => simp

/-! The scatter indices and the scattered value, read at an index -/

/-- The wrap "if a < 0 then a + N else a" of a row number below 2³¹ is the row number. -/
theorem wrap_row (n : Nat) (hn : n < 2 ^ 31) (Nw : BitVec 32) :
    Scalar.select (IntOp.cmpi .slt (BitVec.ofNat 32 n) 0#32) (IntOp.addi (BitVec.ofNat 32 n) Nw) (BitVec.ofNat 32 n)
      = BitVec.ofNat 32 n := by
  have h : ¬ IntOp.cmpi .slt (BitVec.ofNat 32 n) 0#32 = 1#1 := by
    rw [Predicate.slt_iff_toNat (by simp only [BitVec.toNat_ofNat]; omega) (by decide)]
    simp
  rw [eq_zero_of_ne_one h, select_zero]

theorem v27_at (i : S4096.Idx) : val_main_v27 (F := Ideal) i = BitVec.ofNat 32 (i 0).val := by
  have hi : (i 0).val < 4096 := (i 0).isLt
  rw [val_main_v27_apply, val_main_v24_apply, val_main_v26_apply, val_main_v22_apply, val_main_v23_apply, val_main_c_apply]
  exact wrap_row _ (by omega) _

theorem v32_at (i : S4096.Idx) : val_main_v32 (F := Ideal) i = BitVec.ofNat 32 (i 0).val := by
  have hi : (i 0).val < 4096 := (i 0).isLt
  rw [val_main_v32_apply, val_main_v29_apply, val_main_v31_apply, val_main_v22_apply, val_main_v28_apply, val_main_c_5_apply]
  exact wrap_row _ (by omega) _

theorem v42_at (i : S4096.Idx) : val_main_v42 (F := Ideal) i = BitVec.ofNat 32 (i 0).val := by
  have hi : (i 0).val < 4096 := (i 0).isLt
  rw [val_main_v42_apply, val_main_v39_apply, val_main_v41_apply, val_main_v22_apply, val_main_v38_apply, val_main_c_8_apply]
  exact wrap_row _ (by omega) _

theorem v47_at (i : S4096.Idx) : val_main_v47 (F := Ideal) i = BitVec.ofNat 32 (i 0).val := by
  have hi : (i 0).val < 4096 := (i 0).isLt
  rw [val_main_v47_apply, val_main_v44_apply, val_main_v46_apply, val_main_v22_apply, val_main_v43_apply, val_main_c_10_apply]
  exact wrap_row _ (by omega) _

/-- Both columns of the first scatter's indices hold the row number. -/
theorem v35_at (n : Fin 4096) (c : Fin 2) : val_main_v35 (F := Ideal) (ix2 n c) = BitVec.ofNat 32 n.val := by
  unfold val_main_v35
  match c with
  | ⟨0, _⟩ =>
    refine (concatenate_pair_apply_left (t := S4096x2) (s₁ := S4096x1) (s₂ := S4096x1) (1 : Fin 2) _ _ concatenates_S4096x1_S4096x1_S4096x2_d1 _ rfl
      (ix2 n (0 : Fin 1)) (fun b => by match b with | ⟨0, _⟩ => rfl | ⟨1, _⟩ => rfl)).trans ?_
    rw [val_main_v33_apply, v27_at]
  | ⟨1, _⟩ =>
    refine (concatenate_pair_apply_right (t := S4096x2) (s₁ := S4096x1) (s₂ := S4096x1) (1 : Fin 2) _ _ concatenates_S4096x1_S4096x1_S4096x2_d1 _ rfl rfl
      (ix2 n (0 : Fin 1)) (fun b hb => by match b, hb with | ⟨0, _⟩, _ => rfl | ⟨1, _⟩, hb => exact absurd rfl hb) rfl).trans ?_
    rw [val_main_v34_apply, v32_at]

/-- Both columns of the second scatter's indices hold the row number. -/
theorem v50_at (n : Fin 4096) (c : Fin 2) : val_main_v50 (F := Ideal) (ix2 n c) = BitVec.ofNat 32 n.val := by
  unfold val_main_v50
  match c with
  | ⟨0, _⟩ =>
    refine (concatenate_pair_apply_left (t := S4096x2) (s₁ := S4096x1) (s₂ := S4096x1) (1 : Fin 2) _ _ concatenates_S4096x1_S4096x1_S4096x2_d1 _ rfl
      (ix2 n (0 : Fin 1)) (fun b => by match b with | ⟨0, _⟩ => rfl | ⟨1, _⟩ => rfl)).trans ?_
    rw [val_main_v48_apply, v42_at]
  | ⟨1, _⟩ =>
    refine (concatenate_pair_apply_right (t := S4096x2) (s₁ := S4096x1) (s₂ := S4096x1) (1 : Fin 2) _ _ concatenates_S4096x1_S4096x1_S4096x2_d1 _ rfl rfl
      (ix2 n (0 : Fin 1)) (fun b hb => by match b, hb with | ⟨0, _⟩, _ => rfl | ⟨1, _⟩, hb => exact absurd rfl hb) rfl).trans ?_
    rw [val_main_v49_apply, v47_at]

/-- The word 0xFF800000 is −∞. -/
theorem neg_inf_f32 : Ideal.ofBits .f32 0xFF800000#32 = (⊥ : EReal) := by
  simp [Ideal.ofBits, Ideal.ieee]

theorem v36_at (i : S4096.Idx) : val_main_v36 (F := Ideal) i = (⊥ : EReal) := by
  rw [val_main_v36_apply, val_main_cst_7_apply]
  exact neg_inf_f32

theorem v51_at (i : S4096.Idx) : val_main_v51 (F := Ideal) i = (⊥ : EReal) := by
  rw [val_main_v51_apply, val_main_cst_12_apply]
  exact neg_inf_f32

/-- Some update of the diagonal scatter lands on (i, j) exactly when i = j. -/
theorem dg_lands_iff (idx : IVec S4096x2 32) (hidx : ∀ (n : Fin 4096) (c : Fin 2), idx (ix2 n c) = BitVec.ofNat 32 n.val)
    (i j : Fin 4096) : (∃ n : S4096.Idx, dg.resultIdx? n idx = some (ix2 i j)) ↔ i = j := by
  constructor
  · rintro ⟨n, hn⟩
    rw [dg_resultIdx idx hidx] at hn
    have e := Option.some.inj hn
    have h0 : (⟨(n 0).val, (n 0).isLt⟩ : Fin 4096) = i := congrFun e (0 : Fin 2)
    have h1 : (⟨(n 0).val, (n 0).isLt⟩ : Fin 4096) = j := congrFun e (1 : Fin 2)
    exact h0.symm.trans h1
  · rintro rfl
    exact ⟨ix1 i, dg_resultIdx idx hidx _⟩

end ScoreAux

open ScoreAux

/-! The three statements -/

variable (x0 x1 : (⟨S4096x256, .f32⟩ : BufTy).Contents (Elt Ideal))

/-- a·a with its diagonal at −∞ (the first scatter). -/
theorem v37_eq (i j : Fin 4096) : val_main_v37 (F := Ideal) x0 (ix2 i j) = simOff (unitRows (ofVec x0)) i j := by
  unfold val_main_v37
  refine (scatter_set_const dg _ _ _ (⊥ : EReal) v36_at _).trans ?_
  unfold simOff
  by_cases h : i = j
  · rw [if_pos ((dg_lands_iff _ v35_at i j).mpr h), if_pos h]
  · rw [if_neg (fun hh => h ((dg_lands_iff _ v35_at i j).mp hh)), if_neg h]
    exact v13_eq x0 i j

/-- b·b with its diagonal at −∞ (the second scatter). -/
theorem v52_eq (i j : Fin 4096) : val_main_v52 (F := Ideal) x1 (ix2 i j) = simOff (unitRows (ofVec x1)) i j := by
  unfold val_main_v52
  refine (scatter_set_const dg _ _ _ (⊥ : EReal) v51_at _).trans ?_
  unfold simOff
  by_cases h : i = j
  · rw [if_pos ((dg_lands_iff _ v50_at i j).mpr h), if_pos h]
  · rw [if_neg (fun hh => h ((dg_lands_iff _ v50_at i j).mp hh)), if_neg h]
    exact v17_eq x1 i j

/-- The score matrix. -/
theorem v56_eq (p q : Fin 8192) :
    val_main_v56 (F := Ideal) x0 x1 (ix2 p q) = score (unitRows (ofVec x0)) (unitRows (ofVec x1)) p q := by
  have hpl : p.val < 8192 := p.isLt
  have hql : q.val < 8192 := q.isLt
  unfold val_main_v56 score
  by_cases hp : p.val < 4096
  · rw [dif_pos hp]
    refine (concatenate_pair_apply_left (t := S8192x8192) (s₁ := S4096x8192) (s₂ := S4096x8192) (0 : Fin 2) _ _ concatenates_S4096x8192_S4096x8192_S8192x8192_d0 _ rfl
      (ix2 (⟨p.val, hp⟩ : Fin 4096) q) (fun b => by match b with | ⟨0, _⟩ => rfl | ⟨1, _⟩ => rfl)).trans ?_
    unfold val_main_v53
    by_cases hq : q.val < 4096
    · rw [dif_pos hq]
      refine (concatenate_pair_apply_left (t := S4096x8192) (s₁ := S4096x4096) (s₂ := S4096x4096) (1 : Fin 2) _ _ concatenates_S4096x4096_S4096x4096_S4096x8192_d1 _ rfl
        (ix2 (⟨p.val, hp⟩ : Fin 4096) (⟨q.val, hq⟩ : Fin 4096)) (fun b => by match b with | ⟨0, _⟩ => rfl | ⟨1, _⟩ => rfl)).trans ?_
      exact v21_eq x0 x1 _ _
    · rw [dif_neg hq]
      refine (concatenate_pair_apply_right (t := S4096x8192) (s₁ := S4096x4096) (s₂ := S4096x4096) (1 : Fin 2) _ _ concatenates_S4096x4096_S4096x4096_S4096x8192_d1 _ rfl rfl
        (ix2 (⟨p.val, hp⟩ : Fin 4096) (⟨q.val - 4096, by omega⟩ : Fin 4096))
        (fun b hb => by match b, hb with | ⟨0, _⟩, _ => rfl | ⟨1, _⟩, hb => exact absurd rfl hb)
        (by show q.val - 4096 + 4096 = q.val; omega)).trans ?_
      exact v37_eq x0 _ _
  · rw [dif_neg hp]
    refine (concatenate_pair_apply_right (t := S8192x8192) (s₁ := S4096x8192) (s₂ := S4096x8192) (0 : Fin 2) _ _ concatenates_S4096x8192_S4096x8192_S8192x8192_d0 _ rfl rfl
      (ix2 (⟨p.val - 4096, by omega⟩ : Fin 4096) q)
      (fun b hb => by match b, hb with | ⟨0, _⟩, hb => exact absurd rfl hb | ⟨1, _⟩, _ => rfl)
      (by show p.val - 4096 + 4096 = p.val; omega)).trans ?_
    unfold val_main_v55
    by_cases hq : q.val < 4096
    · rw [dif_pos hq]
      refine (concatenate_pair_apply_left (t := S4096x8192) (s₁ := S4096x4096) (s₂ := S4096x4096) (1 : Fin 2) _ _ concatenates_S4096x4096_S4096x4096_S4096x8192_d1 _ rfl
        (ix2 (⟨p.val - 4096, by omega⟩ : Fin 4096) (⟨q.val, hq⟩ : Fin 4096)) (fun b => by match b with | ⟨0, _⟩ => rfl | ⟨1, _⟩ => rfl)).trans ?_
      exact v52_eq x1 _ _
    · rw [dif_neg hq]
      refine (concatenate_pair_apply_right (t := S4096x8192) (s₁ := S4096x4096) (s₂ := S4096x4096) (1 : Fin 2) _ _ concatenates_S4096x4096_S4096x4096_S4096x8192_d1 _ rfl rfl
        (ix2 (⟨p.val - 4096, by omega⟩ : Fin 4096) (⟨q.val - 4096, by omega⟩ : Fin 4096))
        (fun b hb => by match b, hb with | ⟨0, _⟩, _ => rfl | ⟨1, _⟩, hb => exact absurd rfl hb)
        (by show q.val - 4096 + 4096 = q.val; omega)).trans ?_
      rw [val_main_v54_apply]
      have e : idx_main_v54 (ix2 (⟨p.val - 4096, by omega⟩ : Fin 4096) (⟨q.val - 4096, by omega⟩ : Fin 4096))
          = ix2 (⟨q.val - 4096, by omega⟩ : Fin 4096) (⟨p.val - 4096, by omega⟩ : Fin 4096) := by
        funext a
        match a with
        | ⟨0, _⟩ => rfl
        | ⟨1, _⟩ => rfl
      rw [e]
      exact v21_eq x0 x1 ⟨q.val - 4096, by omega⟩ ⟨p.val - 4096, by omega⟩

end Cert.ReferenceIdeal.RefSpec

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.RefLoss.lean ====
/-
  From the score matrix to the reference's result at the ideal values: the row-wise log-softmax (row maximum, shifted
  exponentials summed, logarithm), its diagonal gathered, summed, divided by the count and negated — `Spec.lossR`.
-/
import proofs.«115458_j2911987827023_1_alg».proof.Proof.RefScore
import proofs.«115458_j2911987827023_1_alg».proof.Proof.LibGS

noncomputable section

open Idealize.ShloMosaic Idealize.ShloMosaic.TcCoe Idealize.SL.Sem Idealize.ShloMosaic.StableHlo

namespace Cert.ReferenceIdeal.RefSpec

open Cert.ReferenceIdeal Cert.ReferenceIdeal.Gen Cert.ReferenceIdeal.ReadP Cert.Spec ValueIdx

variable (x0 x1 : (⟨S4096x256, .f32⟩ : BufTy).Contents (Elt Ideal))

namespace Loss

/-! ## The log-softmax, stage by stage -/

/-- The single-precision word of −∞ is the extended real −∞. -/
theorem negInf_f32 : Ideal.ofBits .f32 0xFF800000#32 = (⊥ : EReal) := by
  simp [Ideal.ofBits, Ideal.ieee]

/-- The row index p with column k put back is (p, k). -/
theorem lift_row (h : S8192x8192.Reduces [1] S8192) (p : Fin 8192) (k : Fin (S8192x8192.size 1)) :
    h.lift (ix1 p) k = ix2 p (⟨k.val, k.isLt⟩ : Fin 8192) := by
  funext c; apply Fin.ext
  fin_cases c <;> rfl

/-- The row maximum of the score matrix: the fold of max from −∞ over the row. -/
theorem v0_eq (p : Fin 8192) :
    val_main_call2_v0 (F := Ideal) x0 x1 (ix1 p) = top (score (unitRows (ofVec x0)) (unitRows (ofVec x1)) p) := by
  have hR : S8192x8192.Reduces [1] S8192 := by decide
  unfold val_main_call2_v0
  rw [Host.reduce_eq_fold_single FloatOps.maximumf _ _ reducesTo_S8192x8192_S8192_d1 hR h_S_]
  have hf : (val_main_v56 (F := Ideal) x0 x1 ∘ hR.lift (ix1 p))
      = fun k : Fin 8192 => score (unitRows (ofVec x0)) (unitRows (ofVec x1)) p k :=
    funext fun k => (congrArg (val_main_v56 (F := Ideal) x0 x1) (lift_row hR p k)).trans (v56_eq x0 x1 p _)
  rw [hf]
  show Finset.fold max (Ideal.ofBits .f32 0xFF800000#32) _ _ = Finset.fold max ⊥ _ _
  rw [negInf_f32]
  rfl

/-- The row maximum, joined with −∞ and broadcast along the row, is still the row maximum. -/
theorem v4_eq (p q : Fin 8192) :
    val_main_call2_v4 (F := Ideal) x0 x1 (ix2 p q) = top (score (unitRows (ofVec x0)) (unitRows (ofVec x1)) p) := by
  have e : idx_main_call2_v3 (idx_main_call2_v4 (ix2 p q)) = ix1 p := by
    funext a; match a with | ⟨0, _⟩ => rfl
  rw [val_main_call2_v4_apply, val_main_call2_v3_apply, val_main_call2_v2_apply, e, v0_eq,
    val_main_call2_v1_apply, val_main_call2_cst_0_apply]
  show max (Ideal.ofBits .f32 0xFF800000#32) _ = _
  rw [negInf_f32]
  exact max_eq_right bot_le

/-- The shifted score. -/
theorem v5_eq (p q : Fin 8192) :
    val_main_call2_v5 (F := Ideal) x0 x1 (ix2 p q)
      = score (unitRows (ofVec x0)) (unitRows (ofVec x1)) p q - top (score (unitRows (ofVec x0)) (unitRows (ofVec x1)) p) := by
  rw [val_main_call2_v5_apply, v56_eq, v4_eq]
  rfl

/-- The row sum of the exponentials of the shifted scores. -/
theorem v7_eq (p : Fin 8192) :
    val_main_call2_v7 (F := Ideal) x0 x1 (ix1 p)
      = ∑ q' : Fin 8192, Ideal.exp (score (unitRows (ofVec x0)) (unitRows (ofVec x1)) p q'
          - top (score (unitRows (ofVec x0)) (unitRows (ofVec x1)) p)) := by
  rw [val_main_call2_v7_apply, val_main_call2_cst_1_apply]
  show Ideal.ofBits .f32 0x00000000#32 + _ = _
  rw [Ideal.ofBits_zero_f32, zero_add]
  refine Finset.sum_congr rfl fun k _ => ?_
  have e : idx_main_call2_v7 (ix1 p) k = ix2 p k := by
    funext a; match a with | ⟨0, _⟩ => rfl | ⟨1, _⟩ => rfl
  rw [e, val_main_call2_v6_apply, v5_eq]
  rfl

/-- Its logarithm, broadcast along the row. -/
theorem v10_eq (p q : Fin 8192) :
    val_main_call2_v10 (F := Ideal) x0 x1 (ix2 p q)
      = Ideal.log (∑ q' : Fin 8192, Ideal.exp (score (unitRows (ofVec x0)) (unitRows (ofVec x1)) p q'
          - top (score (unitRows (ofVec x0)) (unitRows (ofVec x1)) p))) := by
  have e : idx_main_call2_v8 (idx_main_call2_v10 (ix2 p q)) = ix1 p := by
    funext a; match a with | ⟨0, _⟩ => rfl
  rw [val_main_call2_v10_apply, val_main_call2_v9_apply, val_main_call2_v8_apply, e, v7_eq]
  rfl

/-! ## The diagonal gather -/

/-- The gather of pairs: for an [N, N] table and an [n, 2] array of start-index pairs (both of the table's axes collapsed
    and named, in order, by the start index map; the index vector on axis 1; no offset axes), position p reads the table
    at the pair its two start indices name, each read signed and clamped into [0, N − 1]. -/
theorem gather_pairs {α : Type} {N n w : Nat} (d : GatherDims ⟨2, ![N, N]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, N]⟩ : Shape).Idx → α) (idx : IVec ⟨2, ![n, 2]⟩ w) (p : Fin n) (r c : Fin N)
    (hr : min (idx (ix2 p (0 : Fin 2))).toInt.toNat (N - 1) = r.val)
    (hc : min (idx (ix2 p (1 : Fin 2))).toInt.toNat (N - 1) = c.val) :
    Host.gather d x idx (ix1 p) = x (ix2 r c) := by
  have hb : ∀ a : Fin 2, a ∉ d.operandBatchingDims := by intro a; rw [hob]; exact List.not_mem_nil
  have hmem : ∀ a : Fin 2, a ∈ ([0, 1] : List (Fin 2)) := by intro a; fin_cases a <;> simp
  have hk : ∀ a : Fin 2, a ∉ d.sKept := by
    intro a h; exact ((d.mem_sKept a).1 h).1 (by rw [hcoll]; exact hmem a)
  have hsl : ∀ a : Fin 2, d.sliceSizes a = 1 := fun a => d.slice_collapsed a (by rw [hcoll]; exact hmem a)
  -- every coordinate of the rank-1 result index is p
  have hj : ∀ e : Fin 1, ((ix1 p : (⟨1, ![n]⟩ : Shape).Idx) e).val = p.val := by
    intro e; match e with | ⟨0, _⟩ => rfl
  -- the start indices are read at (p, a) for the component naming axis a
  have hsi : ∀ (a : Fin 2) (ha : a ∈ d.startIndexMap),
      d.siIdx (ix1 p) ⟨d.startIndexMap.idxOf a, List.idxOf_lt_length_iff.2 ha⟩ = ix2 p a := by
    intro a ha
    funext b; apply Fin.ext
    match b with
    | ⟨0, _⟩ =>
      unfold GatherDims.siIdx
      rw [dif_neg (by rw [hivd]; simp)]
      unfold GatherDims.siCoord
      exact hj _
    | ⟨1, _⟩ =>
      unfold GatherDims.siIdx
      rw [dif_pos (by rw [hivd])]
      show List.idxOf a d.startIndexMap = a.val
      rw [hsim]; fin_cases a <;> simp
  have key : ∀ a : Fin 2, (d.operandIdx (ix1 p) idx a).val = min (idx (ix2 p a)).toInt.toNat (N - 1) := by
    intro a
    have ha : a ∈ d.startIndexMap := by rw [hsim]; exact hmem a
    have hsz : (⟨2, ![N, N]⟩ : Shape).size a = N := by fin_cases a <;> rfl
    show d.start (ix1 p) idx a + d.batchCoord (ix1 p) a + d.offCoord (ix1 p) a = _
    rw [GatherDims.batchCoord_eq_zero _ _ _ (hb a), GatherDims.offCoord_eq_zero _ _ _ (hk a), Nat.add_zero]
    unfold GatherDims.start
    rw [dif_pos ha, hsi a ha, hsl a, hsz]
  unfold Host.gather
  congr 1
  funext a; apply Fin.ext
  rw [key a]
  match a with
  | ⟨0, _⟩ => exact hr
  | ⟨1, _⟩ => exact hc

/-- A row number below 8192, as a 32-bit word, reads signed as itself. -/
theorem toInt_row (p : Fin 8192) : (BitVec.ofNat 32 p.val).toInt = (p.val : Int) := by
  have hp := p.isLt
  have ht : (BitVec.ofNat 32 p.val).toNat = p.val := by
    rw [BitVec.toNat_ofNat]; exact Nat.mod_eq_of_lt (by omega)
  rw [BitVec.toInt_eq_toNat_of_lt (by rw [ht]; omega), ht]

/-- The wrapped row counter "if i < 0 then i + 8192 else i" is the row number. -/
theorem v64_eq (p : Fin 8192) : val_main_v64 (F := Ideal) (ix1 p) = BitVec.ofNat 32 p.val := by
  rw [val_main_v64_apply, val_main_v61_apply, val_main_v63_apply, val_main_v59_apply, val_main_v60_apply,
    val_main_c_13_apply, val_main_v62_apply, val_main_c_14_apply]
  exact Cert.LibGS.wrap_of_nonneg (BitVec.ofNat 32 p.val) 8192#32 (by rw [toInt_row]; exact Int.natCast_nonneg _)

theorem v69_eq (p : Fin 8192) : val_main_v69 (F := Ideal) (ix1 p) = BitVec.ofNat 32 p.val := by
  rw [val_main_v69_apply, val_main_v66_apply, val_main_v68_apply, val_main_v57_apply, val_main_v65_apply,
    val_main_c_15_apply, val_main_v67_apply, val_main_c_16_apply]
  exact Cert.LibGS.wrap_of_nonneg (BitVec.ofNat 32 p.val) 8192#32 (by rw [toInt_row]; exact Int.natCast_nonneg _)

/-- Both columns of the start indices hold the row number. -/
theorem v72_col0 (p : Fin 8192) : val_main_v72 (F := Ideal) (ix2 p (0 : Fin 2)) = BitVec.ofNat 32 p.val := by
  unfold val_main_v72
  rw [concatenate_pair_apply_left (1 : Fin 2) (val_main_v70 (F := Ideal)) (val_main_v71 (F := Ideal)) concatenates_S8192x1_S8192x1_S8192x2_d1 (ix2 p (0 : Fin 2)) rfl
    (ix2 p (0 : Fin 1)) (fun b => by match b with | ⟨0, _⟩ => rfl | ⟨1, _⟩ => rfl)]
  rw [val_main_v70_apply]
  exact (congrArg (val_main_v64 (F := Ideal)) (funext fun a => by match a with | ⟨0, _⟩ => rfl)).trans (v64_eq p)

theorem v72_col1 (p : Fin 8192) : val_main_v72 (F := Ideal) (ix2 p (1 : Fin 2)) = BitVec.ofNat 32 p.val := by
  unfold val_main_v72
  rw [concatenate_pair_apply_right (1 : Fin 2) (val_main_v70 (F := Ideal)) (val_main_v71 (F := Ideal)) concatenates_S8192x1_S8192x1_S8192x2_d1 (ix2 p (1 : Fin 2)) rfl rfl
    (ix2 p (0 : Fin 1)) (fun b hb => by match b with | ⟨0, _⟩ => rfl | ⟨1, _⟩ => exact absurd rfl hb) rfl]
  rw [val_main_v71_apply]
  exact (congrArg (val_main_v69 (F := Ideal)) (funext fun a => by match a with | ⟨0, _⟩ => rfl)).trans (v69_eq p)

/-! ## The mean -/

/-- A rank-1 index is its one coordinate. -/
def idxEquiv1 : S8192.Idx ≃ Fin 8192 where
  toFun j := j 0
  invFun p := ix1 p
  left_inv j := (eq_ix1 j).symm
  right_inv p := rfl

end Loss

open Loss

/-- The log-softmax of the score matrix at (p, q). -/
theorem v58_eq (p q : Fin 8192) :
    val_main_v58 (F := Ideal) x0 x1 (ix2 p q)
      = (score (unitRows (ofVec x0)) (unitRows (ofVec x1)) p q - top (score (unitRows (ofVec x0)) (unitRows (ofVec x1)) p))
        - Ideal.log (∑ q' : Fin 8192, Ideal.exp (score (unitRows (ofVec x0)) (unitRows (ofVec x1)) p q'
            - top (score (unitRows (ofVec x0)) (unitRows (ofVec x1)) p))) := by
  rw [val_main_v58_apply, v5_eq, v10_eq]
  rfl

/-- Its diagonal, gathered. -/
theorem v73_eq (p : Fin 8192) :
    val_main_v73 (F := Ideal) x0 x1 (ix1 p) = logp (unitRows (ofVec x0)) (unitRows (ofVec x1)) p := by
  unfold val_main_v73
  rw [gather_pairs gather_S8192x8192_S8192x2_S8192_n_01_n_n_01_1_11 rfl rfl rfl rfl _ _ p p p
    (by rw [v72_col0]; exact Cert.LibGS.clamp_of_inrange _ 8192 p.val (toInt_row p) p.isLt)
    (by rw [v72_col1]; exact Cert.LibGS.clamp_of_inrange _ 8192 p.val (toInt_row p) p.isLt)]
  exact v58_eq x0 x1 p p

/-- The reference's result is the loss as the mean of the diagonal log-probabilities, negated. -/
theorem result_eq :
    val_main_v76 (F := Ideal) x0 x1 = fun _ => lossR (unitRows (ofVec x0)) (unitRows (ofVec x1)) := by
  funext i
  rw [val_main_v76_apply, val_main_v75_apply, val_main_v74_apply, val_main_cst_17_apply, val_main_cst_18_apply]
  simp only [Ideal.hostNegf_def, Ideal.negf_def, Ideal.hostDivf_def, Ideal.ofBits_def]
  rw [Ideal.ofBits_zero_f32, zero_add]
  unfold lossR cntC
  have hs : ∑ j : S8192.Idx, val_main_v73 (F := Ideal) x0 x1 j
      = ∑ p : Fin 8192, logp (unitRows (ofVec x0)) (unitRows (ofVec x1)) p :=
    Fintype.sum_equiv idxEquiv1 _ _ fun j =>
      (congrArg (val_main_v73 (F := Ideal) x0 x1) (eq_ix1 j)).trans (v73_eq x0 x1 (j 0))
  rw [hs]

end Cert.ReferenceIdeal.RefSpec

end
-- ==== Proof.BridgeUnit.lean ====
/-
  Rows of finite numbers scale to rows of finite numbers: the sum of a row's squares is a non-negative real, so is its
  square root, the clamp makes the divisor a positive real, and a real divided by a positive real is a real.
-/
import proofs.«115458_j2911987827023_1_alg».proof.Proof.Spec
import Mathlib.Data.EReal.Operations

noncomputable section

open Idealize.ShloMosaic

namespace Cert.Bridge

open Cert.Spec

/-- Every entry is a real number. -/
def Fin2Real (x : Arr) : Prop := ∀ i k, ∃ r : ℝ, x i k = (r : EReal)

/-- A finite sum of reals, taken in the extended reals, is the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is a real is a real. -/
theorem sum_real {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self a s)
    exact ⟨q + r, by rw [Finset.sum_insert ha, hq, hr, EReal.coe_add]⟩

/-- The larger of two reals, taken in the extended reals, is the real maximum. -/
theorem max_coe (a b : ℝ) : max (a : EReal) (b : EReal) = ((max a b : ℝ) : EReal) :=
  (EReal.coe_strictMono.monotone.map_max).symm

/-- The clamp constant is the real 11258999 · 2⁻⁵⁰ (sign 0, exponent field 100, fraction field 2870391). -/
theorem epsC_eq : epsC = ((11258999 * (2 : ℝ) ^ (-50 : ℤ) : ℝ) : EReal) := by
  unfold epsC; simp [Ideal.ofBits, Ideal.ieee, -EReal.coe_mul]

/-- The clamp constant is a positive real. -/
theorem epsC_pos_real : ∃ e : ℝ, 0 < e ∧ epsC = (e : EReal) :=
  ⟨11258999 * (2 : ℝ) ^ (-50 : ℤ), by positivity, epsC_eq⟩

theorem unitRows_real (x : Arr) (hx : Fin2Real x) : Fin2Real (unitRows x) := by
  intro i k
  choose f hf using hx
  obtain ⟨e, he, hE⟩ := epsC_pos_real
  -- the sum of the row's squares is the real sum of squares, which is non-negative
  have hsum : (∑ l : Fin 256, x i l * x i l) = ((∑ l : Fin 256, f i l * f i l : ℝ) : EReal) := by
    rw [← sum_coe]
    refine Finset.sum_congr rfl (fun l _ => ?_)
    rw [hf i l, EReal.coe_mul]
  have hnn : 0 ≤ ∑ l : Fin 256, f i l * f i l := Finset.sum_nonneg (fun l _ => mul_self_nonneg _)
  -- so its square root is the real square root
  have hsqrt : Ideal.sqrt (∑ l : Fin 256, x i l * x i l)
      = ((Real.sqrt (∑ l : Fin 256, f i l * f i l) : ℝ) : EReal) := by
    rw [hsum, Ideal.sqrt_coe, if_neg (not_lt.mpr hnn)]
  -- the clamped norm is a positive real
  have hmax : max (Ideal.sqrt (∑ l : Fin 256, x i l * x i l)) epsC
      = ((max (Real.sqrt (∑ l : Fin 256, f i l * f i l)) e : ℝ) : EReal) := by
    rw [hsqrt, hE, max_coe]
  have hpos : 0 < max (Real.sqrt (∑ l : Fin 256, f i l * f i l)) e := lt_max_of_lt_right he
  -- and the quotient of a real by it is the real quotient
  refine ⟨f i k * (1 / max (Real.sqrt (∑ l : Fin 256, f i l * f i l)) e), ?_⟩
  show Ideal.div (x i k) (max (Ideal.sqrt (∑ l : Fin 256, x i l * x i l)) epsC) = _
  rw [hmax, Ideal.div_coe hpos.ne', hf i k, EReal.coe_mul]

end Cert.Bridge

end
-- ==== Proof.BridgeRow.lean ====
/-
  One row of the score matrix against the tile-ordered evaluation, over real-valued unit arrays: the maximum of the
  8192-long row is the larger of its two halves' maxima, its exponential sum the two halves' sums added, and, the
  maximum M and the log L of the sum being REAL numbers, (d − M) − L = d − (M + L) on the extended reals.
-/
import proofs.«115458_j2911987827023_1_alg».proof.Proof.BridgeUnit
import Mathlib.Algebra.BigOperators.Fin
import Mathlib.Algebra.Order.BigOperators.Group.Finset

noncomputable section

open Idealize.ShloMosaic

namespace Cert.Bridge

open Cert.Spec

/-- Row `i` of the upper half of the score matrix. -/
def upper (i : Fin 4096) : Fin 8192 := ⟨i.val, by have := i.isLt; omega⟩
/-- Row `i` of the lower half. -/
def lower (i : Fin 4096) : Fin 8192 := ⟨i.val + 4096, by have := i.isLt; omega⟩

namespace Row

/-- Two rows of length 4096 laid side by side as one row of length 8192. -/
def glue (f g : Fin 4096 → EReal) (q : Fin 8192) : EReal :=
  if hq : q.val < 4096 then f ⟨q.val, hq⟩ else g ⟨q.val - 4096, by have := q.isLt; omega⟩

theorem glue_of_lt (f g : Fin 4096 → EReal) (q : Fin 8192) (hq : q.val < 4096) :
    glue f g q = f ⟨q.val, hq⟩ := dif_pos hq

theorem glue_of_ge (f g : Fin 4096 → EReal) (q : Fin 8192) (hq : ¬ q.val < 4096) :
    glue f g q = g ⟨q.val - 4096, by have := q.isLt; omega⟩ := dif_neg hq

/-- The fold of max is the supremum over the index set. -/
theorem top_eq_sup {n : Nat} (f : Fin n → EReal) : top f = Finset.univ.sup f := rfl

theorem le_top_row {n : Nat} (f : Fin n → EReal) (j : Fin n) : f j ≤ top f := by
  rw [top_eq_sup]; exact Finset.le_sup (Finset.mem_univ j)

theorem top_row_le {n : Nat} (f : Fin n → EReal) (c : EReal) (h : ∀ j, f j ≤ c) : top f ≤ c := by
  rw [top_eq_sup]; exact Finset.sup_le (fun j _ => h j)

/-- The largest entry of the long row is the larger of the two halves' largest entries. -/
theorem top_glue (f g : Fin 4096 → EReal) : top (glue f g) = max (top f) (top g) := by
  apply le_antisymm
  · apply top_row_le
    intro q
    by_cases hq : q.val < 4096
    · rw [glue_of_lt f g q hq]; exact le_trans (le_top_row f _) (le_max_left _ _)
    · rw [glue_of_ge f g q hq]; exact le_trans (le_top_row g _) (le_max_right _ _)
  · apply max_le
    · apply top_row_le
      intro j
      have h := le_top_row (glue f g) ⟨j.val, by have := j.isLt; omega⟩
      rwa [glue_of_lt f g _ j.isLt] at h
    · apply top_row_le
      intro j
      have hq : ¬ ((⟨j.val + 4096, by have := j.isLt; omega⟩ : Fin 8192).val < 4096) := by simp
      have h := le_top_row (glue f g) ⟨j.val + 4096, by have := j.isLt; omega⟩
      rw [glue_of_ge f g _ hq] at h
      have e : (⟨(⟨j.val + 4096, by have := j.isLt; omega⟩ : Fin 8192).val - 4096, by have := j.isLt; simp⟩ : Fin 4096) = j :=
        Fin.ext (by simp)
      rwa [e] at h

/-- A sum along the long row is the two halves' sums added. -/
theorem sum_glue (h : EReal → EReal) (f g : Fin 4096 → EReal) :
    (∑ q : Fin 8192, h (glue f g q)) = (∑ j : Fin 4096, h (f j)) + ∑ j : Fin 4096, h (g j) := by
  have key := Fin.sum_univ_add (a := 4096) (b := 4096) (fun q : Fin (4096 + 4096) => h (glue f g q))
  have h1 : ∀ j : Fin 4096, h (glue f g (Fin.castAdd 4096 j)) = h (f j) := by
    intro j
    have hq : (Fin.castAdd 4096 j : Fin 8192).val < 4096 := j.isLt
    rw [glue_of_lt f g _ hq]
    rfl
  have h2 : ∀ j : Fin 4096, h (glue f g (Fin.natAdd 4096 j)) = h (g j) := by
    intro j
    have hv : (Fin.natAdd 4096 j : Fin 8192).val = 4096 + j.val := rfl
    have hq : ¬ (Fin.natAdd 4096 j : Fin 8192).val < 4096 := by rw [hv]; omega
    rw [glue_of_ge f g _ hq]
    exact congrArg (fun t => h (g t)) (Fin.ext (by show 4096 + j.val - 4096 = j.val; omega))
  refine key.trans ?_
  show (∑ j : Fin 4096, h (glue f g (Fin.castAdd 4096 j))) + (∑ j : Fin 4096, h (glue f g (Fin.natAdd 4096 j))) = _
  simp only [h1, h2]

/-! ### Exponentials of shifted entries -/

theorem exp_nonneg' (x : EReal) : 0 ≤ Ideal.exp x := by
  induction x using EReal.rec with
  | bot => simp
  | coe r => rw [Ideal.exp_coe]; exact_mod_cast (Real.exp_pos r).le
  | top => simp

theorem exp_ne_top' (x : EReal) (hx : x ≠ ⊤) : Ideal.exp x ≠ ⊤ := by
  induction x using EReal.rec with
  | bot => simp
  | coe r => rw [Ideal.exp_coe]; exact EReal.coe_ne_top _
  | top => exact absurd rfl hx

theorem exp_pos' (x : EReal) (hx : x ≠ ⊥) : 0 < Ideal.exp x := by
  induction x using EReal.rec with
  | bot => exact absurd rfl hx
  | coe r => rw [Ideal.exp_coe]; exact_mod_cast Real.exp_pos r
  | top => simp

theorem sub_real_ne_top (x : EReal) (m : ℝ) (hx : x ≠ ⊤) : x - (m : EReal) ≠ ⊤ := by
  induction x using EReal.rec with
  | bot => simp
  | coe r => rw [← EReal.coe_sub]; exact EReal.coe_ne_top _
  | top => exact absurd rfl hx

theorem sub_real_ne_bot (x : EReal) (m : ℝ) (hx : x ≠ ⊥) : x - (m : EReal) ≠ ⊥ := by
  induction x using EReal.rec with
  | bot => exact absurd rfl hx
  | coe r => rw [← EReal.coe_sub]; exact EReal.coe_ne_bot _
  | top => rw [EReal.top_sub_coe]; exact top_ne_bot

/-- A finite sum of non-negative finite terms is non-negative and finite. -/
theorem sum_nonneg_ne_top {n : Nat} (e : Fin n → EReal) (h0 : ∀ j, 0 ≤ e j) (h1 : ∀ j, e j ≠ ⊤) :
    0 ≤ ∑ j, e j ∧ (∑ j, e j) ≠ ⊤ := by
  refine Finset.sum_induction e (fun x => 0 ≤ x ∧ x ≠ ⊤) ?_ ⟨le_rfl, EReal.zero_ne_top⟩ (fun j _ => ⟨h0 j, h1 j⟩)
  intro x y hx hy
  exact ⟨add_nonneg hx.1 hy.1, (EReal.add_lt_top hx.2 hy.2).ne⟩

/-- For real m and l: subtracting their sum is subtracting one after the other. -/
theorem sub_add_real (d : EReal) (m l : ℝ) : d - ((m : EReal) + (l : EReal)) = d - (m : EReal) - (l : EReal) := by
  induction d using EReal.rec with
  | bot => simp
  | coe r => norm_cast; ring
  | top => rw [← EReal.coe_add, EReal.top_sub_coe, EReal.top_sub_coe, EReal.top_sub_coe]

/-- The joint log-sum-exp of two rows taken off a number d is the log-softmax form along the glued row, when no entry
    is +∞ and some entry is not −∞. -/
theorem sub_lse2_eq (f g : Fin 4096 → EReal) (d : EReal) (hf : ∀ j, f j ≠ ⊤) (hg : ∀ j, g j ≠ ⊤)
    (hne : (∃ j, f j ≠ ⊥) ∨ (∃ j, g j ≠ ⊥)) :
    d - lse2 f g
      = (d - top (glue f g)) - Ideal.log (∑ q : Fin 8192, Ideal.exp (glue f g q - top (glue f g))) := by
  rw [sum_glue (fun x => Ideal.exp (x - top (glue f g))) f g, top_glue f g]
  unfold lse2
  -- the joint maximum is a real number
  have hMtop : max (top f) (top g) ≠ ⊤ := by
    have hlf : top f < ⊤ := by
      rw [top_eq_sup, Finset.sup_lt_iff bot_lt_top]
      intro j _; exact lt_top_iff_ne_top.mpr (hf j)
    have hlg : top g < ⊤ := by
      rw [top_eq_sup, Finset.sup_lt_iff bot_lt_top]
      intro j _; exact lt_top_iff_ne_top.mpr (hg j)
    exact (max_lt hlf hlg).ne
  have hMbot : max (top f) (top g) ≠ ⊥ := by
    rcases hne with ⟨j, hj⟩ | ⟨j, hj⟩
    · exact (lt_of_lt_of_le (bot_lt_iff_ne_bot.mpr hj) (le_trans (le_top_row f j) (le_max_left _ _))).ne'
    · exact (lt_of_lt_of_le (bot_lt_iff_ne_bot.mpr hj) (le_trans (le_top_row g j) (le_max_right _ _))).ne'
  obtain ⟨m, hm⟩ : ∃ m : ℝ, max (top f) (top g) = (m : EReal) :=
    ⟨(max (top f) (top g)).toReal, (EReal.coe_toReal hMtop hMbot).symm⟩
  rw [hm]
  -- the sum of the shifted exponentials is a positive real number
  have hF := sum_nonneg_ne_top (fun j => Ideal.exp (f j - (m : EReal))) (fun j => exp_nonneg' _)
    (fun j => exp_ne_top' _ (sub_real_ne_top _ m (hf j)))
  have hG := sum_nonneg_ne_top (fun j => Ideal.exp (g j - (m : EReal))) (fun j => exp_nonneg' _)
    (fun j => exp_ne_top' _ (sub_real_ne_top _ m (hg j)))
  have hStop : (∑ j, Ideal.exp (f j - (m : EReal))) + (∑ j, Ideal.exp (g j - (m : EReal))) ≠ ⊤ :=
    (EReal.add_lt_top hF.2 hG.2).ne
  have hSpos : 0 < (∑ j, Ideal.exp (f j - (m : EReal))) + (∑ j, Ideal.exp (g j - (m : EReal))) := by
    rcases hne with ⟨j, hj⟩ | ⟨j, hj⟩
    · have h1 : 0 < Ideal.exp (f j - (m : EReal)) := exp_pos' _ (sub_real_ne_bot _ m hj)
      have h2 : Ideal.exp (f j - (m : EReal)) ≤ ∑ j, Ideal.exp (f j - (m : EReal)) :=
        Finset.single_le_sum (f := fun j => Ideal.exp (f j - (m : EReal))) (fun j _ => exp_nonneg' _) (Finset.mem_univ j)
      exact lt_of_lt_of_le (lt_of_lt_of_le h1 h2) (le_add_of_nonneg_right hG.1)
    · have h1 : 0 < Ideal.exp (g j - (m : EReal)) := exp_pos' _ (sub_real_ne_bot _ m hj)
      have h2 : Ideal.exp (g j - (m : EReal)) ≤ ∑ j, Ideal.exp (g j - (m : EReal)) :=
        Finset.single_le_sum (f := fun j => Ideal.exp (g j - (m : EReal))) (fun j _ => exp_nonneg' _) (Finset.mem_univ j)
      exact lt_of_lt_of_le (lt_of_lt_of_le h1 h2) (le_add_of_nonneg_left hF.1)
  obtain ⟨s, hs⟩ : ∃ s : ℝ, (∑ j, Ideal.exp (f j - (m : EReal))) + (∑ j, Ideal.exp (g j - (m : EReal))) = (s : EReal) :=
    ⟨_, (EReal.coe_toReal hStop (lt_trans EReal.bot_lt_zero hSpos).ne').symm⟩
  rw [hs] at hSpos ⊢
  have hs0 : ¬ s ≤ 0 := not_le.mpr (EReal.coe_pos.mp hSpos)
  rw [Ideal.log_coe, if_neg hs0]
  exact sub_add_real d m (Real.log s)

/-! ### The scores are real numbers -/

theorem twoC_eq : twoC = ((2 : ℝ) : EReal) := by
  unfold twoC; simp [Ideal.ofBits, Ideal.ieee, -EReal.coe_mul]; norm_num

/-- A scaled inner product of two rows of reals is a real. -/
theorem sim_real (a b : Arr) (ha : Fin2Real a) (hb : Fin2Real b) (i j : Fin 4096) :
    ∃ r : ℝ, sim a b i j = (r : EReal) := by
  have hsum : ∃ r : ℝ, (∑ k : Fin 256, a i k * b j k) = (r : EReal) := by
    refine Finset.sum_induction (fun k => a i k * b j k) (fun x => ∃ r : ℝ, x = (r : EReal)) ?_
      ⟨0, EReal.coe_zero.symm⟩ ?_
    · rintro x y ⟨r, rfl⟩ ⟨s, rfl⟩; exact ⟨r + s, (EReal.coe_add r s).symm⟩
    · intro k _
      obtain ⟨r, hr⟩ := ha i k
      obtain ⟨s, hs⟩ := hb j k
      exact ⟨r * s, by rw [hr, hs, EReal.coe_mul]⟩
  obtain ⟨r, hr⟩ := hsum
  exact ⟨r * 2, by unfold sim; rw [hr, twoC_eq, EReal.coe_mul]⟩

theorem sim_ne_top (a b : Arr) (ha : Fin2Real a) (hb : Fin2Real b) (i j : Fin 4096) : sim a b i j ≠ ⊤ := by
  obtain ⟨r, hr⟩ := sim_real a b ha hb i j; rw [hr]; exact EReal.coe_ne_top r

theorem sim_ne_bot (a b : Arr) (ha : Fin2Real a) (hb : Fin2Real b) (i j : Fin 4096) : sim a b i j ≠ ⊥ := by
  obtain ⟨r, hr⟩ := sim_real a b ha hb i j; rw [hr]; exact EReal.coe_ne_bot r

theorem simOff_ne_top (a : Arr) (ha : Fin2Real a) (i j : Fin 4096) : simOff a i j ≠ ⊤ := by
  unfold simOff
  split_ifs
  · exact bot_ne_top
  · exact sim_ne_top a a ha ha i j

theorem sim_comm (a b : Arr) (i j : Fin 4096) : sim a b j i = sim b a i j := by
  unfold sim
  congr 1
  apply Finset.sum_congr rfl
  intro k _
  exact mul_comm _ _

/-! ### The rows of the score matrix as glued rows -/

theorem score_upper (a b : Arr) (i : Fin 4096) : score a b (upper i) = glue (sim a b i) (simOff a i) := by
  funext q
  unfold score glue
  have hp : (upper i).val < 4096 := i.isLt
  rw [dif_pos hp]
  rfl

theorem lower_not_lt (i : Fin 4096) : ¬ (lower i).val < 4096 := by
  show ¬ (i.val + 4096 < 4096); omega

theorem lower_sub (i : Fin 4096) (h : (lower i).val - 4096 < 4096) : (⟨(lower i).val - 4096, h⟩ : Fin 4096) = i :=
  Fin.ext (by show i.val + 4096 - 4096 = i.val; omega)

theorem score_lower (a b : Arr) (i : Fin 4096) : score a b (lower i) = glue (simOff b i) (sim b a i) := by
  funext q
  unfold score glue
  rw [dif_neg (lower_not_lt i)]
  by_cases hq : q.val < 4096
  · rw [dif_pos hq, dif_pos hq, lower_sub i]
  · rw [dif_neg hq, dif_neg hq, lower_sub i]; exact sim_comm a b i _

end Row

open Row

theorem rowX_eq (a b : Arr) (ha : Fin2Real a) (hb : Fin2Real b) (i : Fin 4096) : rowX a b i = logp a b (upper i) := by
  have hd : score a b (upper i) (upper i) = sim a b i i := by
    rw [score_upper, glue_of_lt _ _ _ i.isLt]; rfl
  unfold rowX logp
  rw [hd, score_upper]
  exact sub_lse2_eq _ _ _ (fun j => sim_ne_top a b ha hb i j) (fun j => simOff_ne_top a ha i j)
    (Or.inl ⟨i, sim_ne_bot a b ha hb i i⟩)

theorem rowY_eq (a b : Arr) (ha : Fin2Real a) (hb : Fin2Real b) (i : Fin 4096) : rowY a b i = logp a b (lower i) := by
  have hd : score a b (lower i) (lower i) = sim a b i i := by
    rw [score_lower, glue_of_ge _ _ _ (lower_not_lt i), lower_sub i]; exact sim_comm b a i i
  unfold rowY logp
  rw [hd, score_lower]
  exact sub_lse2_eq _ _ _ (fun j => simOff_ne_top b hb i j) (fun j => sim_ne_top b a hb ha i j)
    (Or.inr ⟨i, sim_ne_bot b a hb ha i i⟩)

end Cert.Bridge

end
-- ==== Proof.BridgeTotal.lean ====
/-
  From rows to the loss: the 8192 diagonal log-probabilities are the 4096 upper-half rows and the 4096 lower-half rows,
  each group 32 tiles of 128 rows, so summing tile by tile (each tile's upper rows, then its lower rows) is summing all
  of them — a regrouping of a finite sum in a commutative monoid, with no finiteness needed; and negating before or
  after the division by the positive count is the same.
-/
import proofs.«115458_j2911987827023_1_alg».proof.Proof.BridgeRow

noncomputable section

open Idealize.ShloMosaic

namespace Cert.Bridge

open Cert.Spec

/-- The row count is the real number 8192. -/
theorem total_cntC_eq : cntC = ((8192 : ℝ) : EReal) := by
  unfold cntC
  simp [Ideal.ofBits, Ideal.ieee, -EReal.coe_mul]; norm_num

/-- Summing over 32 tiles of 128 rows is summing over all 4096 rows. -/
theorem total_sum_tiles (f : Fin 4096 → EReal) :
    ∑ t : Fin 32, ∑ r : Fin 128, f (rowOf t r) = ∑ i : Fin 4096, f i := by
  rw [← Fintype.sum_prod_type']
  exact Fintype.sum_equiv (finProdFinEquiv : Fin 32 × Fin 128 ≃ Fin (32 * 128)) _ _
    (fun p => congrArg f (Fin.ext (by simp [rowOf, finProdFinEquiv]; omega)))

/-- Summing over 8192 rows is summing over the upper 4096 and the lower 4096. -/
theorem total_sum_halves (g : Fin 8192 → EReal) :
    ∑ p : Fin 8192, g p = ∑ i : Fin 4096, g (upper i) + ∑ i : Fin 4096, g (lower i) := by
  refine (Fin.sum_univ_add (a := 4096) (b := 4096) g).trans ?_
  have h1 : ∀ i : Fin 4096, g (Fin.castAdd 4096 i) = g (upper i) := fun i => congrArg g (Fin.ext rfl)
  have h2 : ∀ i : Fin 4096, g (Fin.natAdd 4096 i) = g (lower i) :=
    fun i => congrArg g (Fin.ext (by show 4096 + i.val = i.val + 4096; omega))
  exact congrArg₂ (· + ·) (Finset.sum_congr rfl (fun i _ => h1 i)) (Finset.sum_congr rfl (fun i _ => h2 i))

theorem loss_of_rows (a b : Arr) (hX : ∀ i, rowX a b i = logp a b (upper i)) (hY : ∀ i, rowY a b i = logp a b (lower i)) :
    lossK a b = lossR a b := by
  have hT : ∑ t : Fin 32, part a b t = ∑ p : Fin 8192, logp a b p := by
    unfold part
    rw [Finset.sum_add_distrib, total_sum_tiles (rowX a b), total_sum_tiles (rowY a b), total_sum_halves]
    congr 1
    · exact Finset.sum_congr rfl (fun i _ => hX i)
    · exact Finset.sum_congr rfl (fun i _ => hY i)
  unfold lossK lossR
  rw [hT, total_cntC_eq, Ideal.div_coe (by norm_num), Ideal.div_coe (by norm_num), EReal.neg_mul]

/-- The two orders of evaluation give one loss on arrays of finite numbers. -/
theorem loss_eq (x y : Arr) (hx : Fin2Real x) (hy : Fin2Real y) :
    lossK (unitRows x) (unitRows y) = lossR (unitRows x) (unitRows y) :=
  loss_of_rows _ _ (rowX_eq _ _ (unitRows_real x hx) (unitRows_real y hy)) (rowY_eq _ _ (unitRows_real x hx) (unitRows_real y hy))

end Cert.Bridge

end
-- ==== Proof.Finite.lean ====
/-
  The precondition read: "every entry of both arguments is smaller in absolute value than +∞" says, entry by entry,
  that each argument holds real numbers — an extended real whose absolute value is below +∞ is neither infinity.
-/
import proofs.«115458_j2911987827023_1_alg».proof.Pre_finite_inputs
import proofs.«115458_j2911987827023_1_alg».proof.Proof.Gen.Pre_finite_inputs
import proofs.«115458_j2911987827023_1_alg».proof.Proof.BridgeUnit
import Idealize.ShloMosaic.Lib.ReduceAll
import Idealize.ShloMosaic.Lib.ValueIdx

noncomputable section

open Idealize.ShloMosaic

namespace Cert.Finite

open Cert.Spec Cert.Bridge

/-- The result shape of a reduction over every axis has exactly one index. -/
instance subsingleton_scalar_idx : Subsingleton Cert.Pre_finite_inputs.S_.Idx :=
  ⟨fun a b => funext fun d => d.elim0⟩

/-- The float word 0x7F800000 is +∞. -/
theorem inf_word : Ideal.ofBits .f32 0x7F800000#32 = (⊤ : EReal) := by
  simp [Ideal.ofBits, Ideal.ieee]

/-- An extended real whose absolute value max a (-a) is below +∞ is a real number: at -∞ and at +∞ the
    absolute value is +∞ itself. -/
theorem real_of_abs_lt_top (a : EReal) (h : max a (-a) < ⊤) : ∃ r : ℝ, a = (r : EReal) := by
  induction a using EReal.rec with
  | bot => simp at h
  | coe r => exact ⟨r, rfl⟩
  | top => simp at h

/-- One half of the predicate: if the conjunction over all entries of "|v| < +∞" is 1, every entry of v is real. -/
theorem real_of_all (x : FVec Ideal Cert.Pre_finite_inputs.S4096x256 .f32)
    (bc : Cert.Pre_finite_inputs.S_.BroadcastsInDim Cert.Pre_finite_inputs.S4096x256
      (![] : Fin 0 → Fin Cert.Pre_finite_inputs.S4096x256.rank))
    (hr : Cert.Pre_finite_inputs.S4096x256.ReducesTo [0, 1] Cert.Pre_finite_inputs.S_)
    (hn : 0 < Cert.Pre_finite_inputs.S_.numel)
    (e : Host.reduce IntOp.andi
        (cmpf CmpFPredicate.olt (Host.absf x)
          (broadcastInDim Cert.Pre_finite_inputs.S4096x256 ![] bc
            (constant Cert.Pre_finite_inputs.S_ FTy.f32 0x7F800000#32)))
        (constantI Cert.Pre_finite_inputs.S_ 1 1#1) hr hn ValueIdx.ix0 = 1#1) :
    Fin2Real (ofVec x) := by
  intro i k
  have h1 := Host.reduce_andi_all _ _ hr hn ValueIdx.ix0 e (ValueIdx.ix2 i k)
  -- the entry's comparison: the absolute value of the entry against the broadcast word
  have h2 : Ideal.cmp .olt (max (x (ValueIdx.ix2 i k)) (-(x (ValueIdx.ix2 i k))))
      (Ideal.ofBits .f32 0x7F800000#32) = 1#1 := h1
  rw [inf_word] at h2
  have h3 : max (x (ValueIdx.ix2 i k)) (-(x (ValueIdx.ix2 i k))) < (⊤ : EReal) := by
    by_contra hc
    simp [Ideal.cmp, hc] at h2
  exact real_of_abs_lt_top _ h3

/-- If the precondition's predicate is all ones on two arrays at the ideal values, both hold real numbers. -/
theorem real_of_pre [Cert.Pre_finite_inputs.Facts] (x y : FVec Ideal Cert.Pre_finite_inputs.S4096x256 .f32)
    (h : Cert.Pre_finite_inputs.fn (F := Ideal) x y = fun _ => 1#1) : Fin2Real (ofVec x) ∧ Fin2Real (ofVec y) := by
  have h0 := congrFun h ValueIdx.ix0
  dsimp only [Cert.Pre_finite_inputs.fn] at h0
  obtain ⟨hx, hy⟩ := IntOp.andi_eq_one.1 h0
  exact ⟨real_of_all x _ _ _ hx, real_of_all y _ _ _ hy⟩

end Cert.Finite

end
-- ==== Proof.lean ====
/-
  The certificate of the contrastive (InfoNCE) loss kernel against its jnp reference.

  Both programs compute, from two 4096 × 256 arrays x and y with rows scaled to unit length (a = x/‖x‖, b = y/‖y‖, the
  norms clamped below), the mean over the 8192 rows of the score matrix [a·b | a·a] over [b·b | (a·b)ᵀ] (entries
  doubled, the diagonals of a·a and b·b at −∞) of  log-softmax(row)[diagonal], negated.
  The kernel program never forms that matrix: a first kernel writes a and b, a second walks 32 tiles of 128 rows, for
  each row takes the joint maximum and the joint shifted exponential sum of the row's two halves, and accumulates
  "matching score − (maximum + log sum)" over rows, halves and tiles into one number; the host negates and divides.
  The reference forms the matrix, takes jax's log-softmax "(s − M) − log Σ exp(s − M)", gathers the diagonal, and means.
  On the extended reals the two agree when x and y hold finite numbers (the precondition): then a and b are real, every
  row maximum M and log-sum L is real, so (d − M) − L = d − (M + L); the maximum and the sum of a row split over its two
  halves; and the order of a finite sum does not matter (`Cert.Bridge.loss_eq`).
  The kernel's −∞ stand-in is the named constant "neg_big", read as −∞ at the ideal values (the two `preserves` conjuncts).
-/
import proofs.«115458_j2911987827023_1_alg».proof.Defs
import proofs.«115458_j2911987827023_1_alg».proof.Proof.Gen.Kernel
import proofs.«115458_j2911987827023_1_alg».proof.Proof.Gen.Kernel.Skeleton
import proofs.«115458_j2911987827023_1_alg».proof.Proof.Gen.Kernel.Launch
import proofs.«115458_j2911987827023_1_alg».proof.Proof.Gen.Kernel.Points
import proofs.«115458_j2911987827023_1_alg».proof.Proof.Gen.Kernel.Frame
import proofs.«115458_j2911987827023_1_alg».proof.Proof.Gen.KernelIdeal
import proofs.«115458_j2911987827023_1_alg».proof.Proof.Gen.KernelIdeal.Skeleton
import proofs.«115458_j2911987827023_1_alg».proof.Proof.Gen.KernelIdeal.Launch
import proofs.«115458_j2911987827023_1_alg».proof.Proof.Gen.KernelIdeal.Points
import proofs.«115458_j2911987827023_1_alg».proof.Proof.Gen.KernelIdeal.Frame
import proofs.«115458_j2911987827023_1_alg».proof.Proof.Gen.ReferenceIdeal
import proofs.«115458_j2911987827023_1_alg».proof.Proof.Gen.Pre_finite_inputs
import proofs.«115458_j2911987827023_1_alg».proof.Proof.RefRun
import proofs.«115458_j2911987827023_1_alg».proof.Proof.RefRunAlt
import proofs.«115458_j2911987827023_1_alg».proof.Proof.RefRead
import proofs.«115458_j2911987827023_1_alg».proof.Proof.KernelValue
import proofs.«115458_j2911987827023_1_alg».proof.Proof.RefLoss
import proofs.«115458_j2911987827023_1_alg».proof.Proof.BridgeTotal
import proofs.«115458_j2911987827023_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunAlt.run (F := Ideal) m ρ)

/-- The ledger's two entries, one per masked block: the table gives "neg_big" the value −∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- At the ideal values the kernel's program ends at the loss in tile order and the reference at the loss as the mean
    of the diagonal log-probabilities, of arguments that agree and hold finite numbers: one number. -/
theorem algebraic : Cert.algebraic_KernelIdeal_ReferenceIdeal := by
  intro m ρ m' ρ' hpre hagree
  refine ⟨fun c => fun _ => Cert.KernelIdeal.ValueK.loss m c, Cert.KernelIdeal.ValueK.run m ρ, ?_⟩
  refine (θ_run Cert.ReferenceIdeal.defs _ _).mono (fun _ h c => ⟨(h c).1.trans ?_, (h c).2⟩)
    (Cert.ReferenceIdeal.RunAlt.run (F := Ideal) m' ρ')
  rw [Cert.ReferenceIdeal.RefSpec.result_eq, (hagree c).1, (hagree c).2]
  have hfin := Cert.Finite.real_of_pre _ _ (hpre c)
  funext _
  exact (Cert.Bridge.loss_eq _ _ hfin.1 hfin.2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
